-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S50257x256 : Shape := ⟨2, ![50257, 256]⟩
abbrev S512x256 : Shape := ⟨2, ![512, 256]⟩
abbrev S1024x65536 : Shape := ⟨2, ![1024, 65536]⟩
abbrev S1024 : Shape := ⟨1, ![1024]⟩
abbrev S_ : Shape := ⟨0, ![]⟩

class Facts : Prop where
  bcast_S_S50257x256 : S_.BroadcastsInDim S50257x256 (![] : Fin 0 → Fin S50257x256.rank)
  reducesTo_S50257x256_S_d0_1 : S50257x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S1024x65536 : S_.BroadcastsInDim S1024x65536 (![] : Fin 0 → Fin S1024x65536.rank)
  reducesTo_S1024x65536_S_d0_1 : S1024x65536.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : IVec S64x128 32) (main_arg1 : IVec S64x128 32) (main_arg2 : FVec F S50257x256 .f32) (main_arg3 : FVec F S512x256 .f32) (main_arg4 : FVec F S1024x65536 .f32) (main_arg5 : FVec F S1024 .f32) : IVec S_ 1 :=
  let main_v0 : FVec F S50257x256 .f32 := Host.absf main_arg2
  let main_cst : FVec F S_ .f32 := constant S_ .f32 0x7F800000#32
  let main_v1 : FVec F S50257x256 .f32 := broadcastInDim S50257x256 ![] bcast_S_S50257x256 main_cst
  let main_v2 : IVec S50257x256 1 := cmpf .olt main_v0 main_v1
  let main_c : IVec S_ 1 := constantI S_ 1 1#1
  let main_v3 : IVec S_ 1 := (fun x v => Host.reduce IntOp.andi x v reducesTo_S50257x256_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S1024x65536 .f32 := Host.absf main_arg4
  let main_cst_2 : FVec F S_ .f32 := constant S_ .f32 0x7F800000#32
  let main_v10 : FVec F S1024x65536 .f32 := broadcastInDim S1024x65536 ![] bcast_S_S1024x65536 main_cst_2
  let main_v11 : IVec S1024x65536 1 := cmpf .olt main_v9 main_v10
  let main_c_3 : IVec S_ 1 := constantI S_ 1 1#1
  let main_v12 : IVec S_ 1 := (fun x v => Host.reduce IntOp.andi x v reducesTo_S1024x65536_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S64x128 : Shape := ⟨2, ![64, 128]⟩
abbrev S50257x256 : Shape := ⟨2, ![50257, 256]⟩
abbrev S512x256 : Shape := ⟨2, ![512, 256]⟩
abbrev S1024x65536 : Shape := ⟨2, ![1024, 65536]⟩
abbrev S1024 : Shape := ⟨1, ![1024]⟩
abbrev S_ : Shape := ⟨0, ![]⟩
abbrev S64x128x1 : Shape := ⟨3, ![64, 128, 1]⟩
abbrev S64x128x256 : Shape := ⟨3, ![64, 128, 256]⟩
abbrev S64x256x256 : Shape := ⟨3, ![64, 256, 256]⟩
abbrev S16x128x256 : Shape := ⟨3, ![16, 128, 256]⟩
abbrev S16x256x256 : Shape := ⟨3, ![16, 256, 256]⟩
abbrev S64x65536 : Shape := ⟨2, ![64, 65536]⟩
abbrev S64x1024 : Shape := ⟨2, ![64, 1024]⟩
abbrev S64x8192 : Shape := ⟨2, ![64, 8192]⟩
abbrev S1024x8192 : Shape := ⟨2, ![1024, 8192]⟩
abbrev S1x1024 : Shape := ⟨2, ![1, 1024]⟩

abbrev nBuf : Space → Nat
  | .hbm => 30
  | .vmem => 13
  | .smem => 0
  | _ => 0

abbrev bufTy : (tb : Table) → Fin (tcTables nBuf tb) → BufTy
  | .hbm, ⟨0, _⟩ => ⟨S64x128, .i32⟩
  | .hbm, ⟨1, _⟩ => ⟨S64x128, .i32⟩
  | .hbm, ⟨2, _⟩ => ⟨S50257x256, .f32⟩
  | .hbm, ⟨3, _⟩ => ⟨S512x256, .f32⟩
  | .hbm, ⟨4, _⟩ => ⟨S1024x65536, .f32⟩
  | .hbm, ⟨5, _⟩ => ⟨S1024, .f32⟩
  | .hbm, ⟨6, _⟩ => ⟨S_, .i32⟩
  | .hbm, ⟨7, _⟩ => ⟨S64x128, .i32⟩
  | .hbm, ⟨8, _⟩ => ⟨S64x128, .i1⟩
  | .hbm, ⟨9, _⟩ => ⟨S_, .i32⟩
  | .hbm, ⟨10, _⟩ => ⟨S64x128, .i32⟩
  | .hbm, ⟨11, _⟩ => ⟨S64x128, .i32⟩
  | .hbm, ⟨12, _⟩ => ⟨S64x128, .i32⟩
  | .hbm, ⟨13, _⟩ => ⟨S64x128x1, .i32⟩
  | .hbm, ⟨14, _⟩ => ⟨S64x128x256, .f32⟩
  | .hbm, ⟨15, _⟩ => ⟨S64x128x256, .bf16⟩
  | .hbm, ⟨16, _⟩ => ⟨S_, .i32⟩
  | .hbm, ⟨17, _⟩ => ⟨S64x128, .i32⟩
  | .hbm, ⟨18, _⟩ => ⟨S64x128, .i1⟩
  | .hbm, ⟨19, _⟩ => ⟨S_, .i32⟩
  | .hbm, ⟨20, _⟩ => ⟨S64x128, .i32⟩
  | .hbm, ⟨21, _⟩ => ⟨S64x128, .i32⟩
  | .hbm, ⟨22, _⟩ => ⟨S64x128, .i32⟩
  | .hbm, ⟨23, _⟩ => ⟨S64x128x1, .i32⟩
  | .hbm, ⟨24, _⟩ => ⟨S64x128x256, .f32⟩
  | .hbm, ⟨25, _⟩ => ⟨S64x128x256, .bf16⟩
  | .hbm, ⟨26, _⟩ => ⟨S64x256x256, .bf16⟩
  | .hbm, ⟨27, _⟩ => ⟨S64x65536, .bf16⟩
  | .hbm, ⟨28, _⟩ => ⟨S1024x65536, .bf16⟩
  | .hbm, ⟨29, _⟩ => ⟨S64x1024, .f32⟩
  | .local _ .vmem, ⟨0, _⟩ => ⟨S16x128x256, .bf16⟩
  | .local _ .vmem, ⟨1, _⟩ => ⟨S16x128x256, .bf16⟩
  | .local _ .vmem, ⟨2, _⟩ => ⟨S16x128x256, .bf16⟩
  | .local _ .vmem, ⟨3, _⟩ => ⟨S16x128x256, .bf16⟩
  | .local _ .vmem, ⟨4, _⟩ => ⟨S16x256x256, .bf16⟩
  | .local _ .vmem, ⟨5, _⟩ => ⟨S16x256x256, .bf16⟩
  | .local _ .vmem, ⟨6, _⟩ => ⟨S64x8192, .bf16⟩
  | .local _ .vmem, ⟨7, _⟩ => ⟨S64x8192, .bf16⟩
  | .local _ .vmem, ⟨8, _⟩ => ⟨S1024x8192, .bf16⟩
  | .local _ .vmem, ⟨9, _⟩ => ⟨S1024x8192, .bf16⟩
  | .local _ .vmem, ⟨10, _⟩ => ⟨S1024, .f32⟩
  | .local _ .vmem, ⟨11, _⟩ => ⟨S64x1024, .f32⟩
  | .local _ .vmem, ⟨12, _⟩ => ⟨S64x1024, .f32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bitsLt_bf16_f32 : FTy.bits .bf16 < FTy.bits .f32
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  inb_S16x256x256_S16x256x256_0_0_0 : ∀ a, (![0, 0, 0] : Fin 3 → Nat) a + S16x256x256.size a ≤ S16x256x256.size a
  h_S16x256x256 : 0 < S16x256x256.numel
  packedbf16_S16x256x256_S16x256x256_0_0_0 : (Rect.unit (s := S16x256x256) ![0, 0, 0] S16x256x256.size inb_S16x256x256_S16x256x256_0_0_0).PackedRows (EltTy.packing .bf16)
  shapeCasts_S64x256x256_S64x65536 : S64x256x256.ShapeCasts S64x65536
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  gather_S50257x256_S64x128x1_S64x128x256_2_0_n_n_0_2_1256_wf : GatherDims.WF S50257x256 S64x128x1 S64x128x256 [2] [0] [] [0] [] 2 ![1, 256]
  gather_S512x256_S64x128x1_S64x128x256_2_0_n_n_0_2_1256_wf : GatherDims.WF S512x256 S64x128x1 S64x128x256 [2] [0] [] [0] [] 2 ![1, 256]
  dot_S16x128x256_S16x128x256_S16x256x256_1_1_2_2_0_0_wf : DotDims.WF S16x128x256 S16x128x256 S16x256x256 [1] [1] [2] [2] [0] [0]
  dot_S64x8192_S1024x8192_S64x1024_1_1_0_0_n_n_wf : DotDims.WF S64x8192 S1024x8192 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S64x128x256.size a
  hwx0_0 : ∀ i : grid0.Coords, EltTy.bits .bf16 = 32 ∨ (Rect.block (s := S64x128x256) S16x128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x256.size a ≤ S64x128x256.size a
  hwx0_1 : ∀ i : grid0.Coords, EltTy.bits .bf16 = 32 ∨ (Rect.block (s := S64x128x256) S16x128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x256.size a ≤ S64x256x256.size a
  hwx0_2 : ∀ i : grid0.Coords, EltTy.bits .bf16 = 32 ∨ (Rect.block (s := S64x256x256) S16x256x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x65536.size a
  hwx1_0 : ∀ i : grid1.Coords, EltTy.bits .bf16 = 32 ∨ (Rect.block (s := S64x65536) S64x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x8192.size a ≤ S1024x65536.size a
  hwx1_1 : ∀ i : grid1.Coords, EltTy.bits .bf16 = 32 ∨ (Rect.block (s := S1024x65536) S1024x8192.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1024.size a ≤ S64x1024.size a
  hwx1_3 : ∀ i : grid1.Coords, EltTy.bits .f32 = 32 ∨ (Rect.block (s := S64x1024) S64x1024.size (cc1_transform_3 i) (hinb1_3 i)).WholeWords (EltTy.packing .f32)

variable [Facts₀]

def gather_S50257x256_S64x128x1_S64x128x256_2_0_n_n_0_2_1256 : GatherDims S50257x256 S64x128x1 S64x128x256 where
  offsetDims := [2]
  collapsedSliceDims := [0]
  operandBatchingDims := []
  startIndicesBatchingDims := []
  startIndexMap := [0]
  indexVectorDim := 2
  sliceSizes := ![1, 256]
  wf := gather_S50257x256_S64x128x1_S64x128x256_2_0_n_n_0_2_1256_wf
def gather_S512x256_S64x128x1_S64x128x256_2_0_n_n_0_2_1256 : GatherDims S512x256 S64x128x1 S64x128x256 where
  offsetDims := [2]
  collapsedSliceDims := [0]
  operandBatchingDims := []
  startIndicesBatchingDims := []
  startIndexMap := [0]
  indexVectorDim := 2
  sliceSizes := ![1, 256]
  wf := gather_S512x256_S64x128x1_S64x128x256_2_0_n_n_0_2_1256_wf
def dot_S16x128x256_S16x128x256_S16x256x256_1_1_2_2_0_0 : DotDims S16x128x256 S16x128x256 S16x256x256 where
  lhsContracting := [1]
  rhsContracting := [1]
  lhsNonContracting := [2]
  rhsNonContracting := [2]
  lhsBatch := [0]
  rhsBatch := [0]
  wf := dot_S16x128x256_S16x128x256_S16x256x256_1_1_2_2_0_0_wf
def dot_S64x8192_S1024x8192_S64x1024_1_1_0_0_n_n : DotDims S64x8192 S1024x8192 S64x1024 where
  lhsContracting := [1]
  rhsContracting := [1]
  lhsNonContracting := [0]
  rhsNonContracting := [0]
  lhsBatch := []
  rhsBatch := []
  wf := dot_S64x8192_S1024x8192_S64x1024_1_1_0_0_n_n_wf

abbrev win0_0 : Pipeline.Window sig grid0 :=
  Pipeline.Window.ofSpec (Memref.whole main_v7) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S16x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S64x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S64x128 : Shape := ⟨2, ![64, 128]⟩
abbrev S50257x256 : Shape := ⟨2, ![50257, 256]⟩
abbrev S512x256 : Shape := ⟨2, ![512, 256]⟩
abbrev S1024x65536 : Shape := ⟨2, ![1024, 65536]⟩
abbrev S1024 : Shape := ⟨1, ![1024]⟩
abbrev S_ : Shape := ⟨0, ![]⟩
abbrev S64x128x1 : Shape := ⟨3, ![64, 128, 1]⟩
abbrev S64x128x256 : Shape := ⟨3, ![64, 128, 256]⟩
abbrev S64x256x256 : Shape := ⟨3, ![64, 256, 256]⟩
abbrev S64x65536 : Shape := ⟨2, ![64, 65536]⟩
abbrev S65536x1024 : Shape := ⟨2, ![65536, 1024]⟩
abbrev S64x1024 : Shape := ⟨2, ![64, 1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S64x128, .i32⟩
  | .hbm, ⟨1, _⟩ => ⟨S64x128, .i32⟩
  | .hbm, ⟨2, _⟩ => ⟨S50257x256, .f32⟩
  | .hbm, ⟨3, _⟩ => ⟨S512x256, .f32⟩
  | .hbm, ⟨4, _⟩ => ⟨S1024x65536, .f32⟩
  | .hbm, ⟨5, _⟩ => ⟨S1024, .f32⟩
  | .hbm, ⟨6, _⟩ => ⟨S_, .i32⟩
  | .hbm, ⟨7, _⟩ => ⟨S64x128, .i32⟩
  | .hbm, ⟨8, _⟩ => ⟨S64x128, .i1⟩
  | .hbm, ⟨9, _⟩ => ⟨S_, .i32⟩
  | .hbm, ⟨10, _⟩ => ⟨S64x128, .i32⟩
  | .hbm, ⟨11, _⟩ => ⟨S64x128, .i32⟩
  | .hbm, ⟨12, _⟩ => ⟨S64x128, .i32⟩
  | .hbm, ⟨13, _⟩ => ⟨S64x128x1, .i32⟩
  | .hbm, ⟨14, _⟩ => ⟨S64x128x256, .f32⟩
  | .hbm, ⟨15, _⟩ => ⟨S_, .i32⟩
  | .hbm, ⟨16, _⟩ => ⟨S64x128, .i32⟩
  | .hbm, ⟨17, _⟩ => ⟨S64x128, .i1⟩
  | .hbm, ⟨18, _⟩ => ⟨S_, .i32⟩
  | .hbm, ⟨19, _⟩ => ⟨S64x128, .i32⟩
  | .hbm, ⟨20, _⟩ => ⟨S64x128, .i32⟩
  | .hbm, ⟨21, _⟩ => ⟨S64x128, .i32⟩
  | .hbm, ⟨22, _⟩ => ⟨S64x128x1, .i32⟩
  | .hbm, ⟨23, _⟩ => ⟨S64x128x256, .f32⟩
  | .hbm, ⟨24, _⟩ => ⟨S64x256x256, .f32⟩
  | .hbm, ⟨25, _⟩ => ⟨S64x65536, .f32⟩
  | .hbm, ⟨26, _⟩ => ⟨S65536x1024, .f32⟩
  | .hbm, ⟨27, _⟩ => ⟨S64x1024, .f32⟩
  | .hbm, ⟨28, _⟩ => ⟨S1x1024, .f32⟩
  | .hbm, ⟨29, _⟩ => ⟨S64x1024, .f32⟩
  | .hbm, ⟨30, _⟩ => ⟨S64x1024, .f32⟩
  | _, _ => ⟨S64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  shapeCasts_S64x256x256_S64x65536 : S64x256x256.ShapeCasts S64x65536
  transposes_S1024x65536_S65536x1024_1_0 : S1024x65536.Transposes [1, 0] S65536x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  gather_S50257x256_S64x128x1_S64x128x256_2_0_n_n_0_2_1256_wf : GatherDims.WF S50257x256 S64x128x1 S64x128x256 [2] [0] [] [0] [] 2 ![1, 256]
  gather_S512x256_S64x128x1_S64x128x256_2_0_n_n_0_2_1256_wf : GatherDims.WF S512x256 S64x128x1 S64x128x256 [2] [0] [] [0] [] 2 ![1, 256]
  dot_S64x128x256_S64x128x256_S64x256x256_1_1_2_2_0_0_wf : DotDims.WF S64x128x256 S64x128x256 S64x256x256 [1] [1] [2] [2] [0] [0]
  dot_S64x65536_S65536x1024_S64x1024_1_0_0_1_n_n_wf : DotDims.WF S64x65536 S65536x1024 S64x1024 [1] [0] [0] [1] [] []

variable [Facts₀]

def gather_S50257x256_S64x128x1_S64x128x256_2_0_n_n_0_2_1256 : GatherDims S50257x256 S64x128x1 S64x128x256 where
  offsetDims := [2]
  collapsedSliceDims := [0]
  operandBatchingDims := []
  startIndicesBatchingDims := []
  startIndexMap := [0]
  indexVectorDim := 2
  sliceSizes := ![1, 256]
  wf := gather_S50257x256_S64x128x1_S64x128x256_2_0_n_n_0_2_1256_wf
def gather_S512x256_S64x128x1_S64x128x256_2_0_n_n_0_2_1256 : GatherDims S512x256 S64x128x1 S64x128x256 where
  offsetDims := [2]
  collapsedSliceDims := [0]
  operandBatchingDims := []
  startIndicesBatchingDims := []
  startIndexMap := [0]
  indexVectorDim := 2
  sliceSizes := ![1, 256]
  wf := gather_S512x256_S64x128x1_S64x128x256_2_0_n_n_0_2_1256_wf
def dot_S64x128x256_S64x128x256_S64x256x256_1_1_2_2_0_0 : DotDims S64x128x256 S64x128x256 S64x256x256 where
  lhsContracting := [1]
  rhsContracting := [1]
  lhsNonContracting := [2]
  rhsNonContracting := [2]
  lhsBatch := [0]
  rhsBatch := [0]
  wf := dot_S64x128x256_S64x128x256_S64x256x256_1_1_2_2_0_0_wf
def dot_S64x65536_S65536x1024_S64x1024_1_0_0_1_n_n : DotDims S64x65536 S65536x1024 S64x1024 where
  lhsContracting := [1]
  rhsContracting := [0]
  lhsNonContracting := [0]
  rhsNonContracting := [1]
  lhsBatch := []
  rhsBatch := []
  wf := dot_S64x65536_S65536x1024_S64x1024_1_0_0_1_n_n_wf

class Facts : Prop extends Facts₀ where

variable [Facts]
-- ==== Proof.BitsTp.lean ====
/-
# The tensor-product call (the first of the two kernel calls), at any contents of the core's buffers

The call walks the batch in four blocks of sixteen entries. At a block it loads the sixteen entries' two row
arrays `[16, 128, 256]` whole, multiplies them as one batched matrix product contracting the 128 positions, and stores
the `[16, 256, 256]` result whole into the output block; nothing is kept from one block to the next. So what the
output block holds after the body is one pure function of the two input blocks, the same at every block, and the
region's invariant is the plain one (the buffers no window stages at anything, the generator register at some state).
Everything is stated at a parameter `V`: the contents of the core's buffers when the call is entered.
-/
import proofs.«117554_j70016556860030_1_alg».proof.Proof.Gen.Kernel.Launch
import proofs.«117554_j70016556860030_1_alg».proof.Proof.Gen.Kernel.Skeleton
import proofs.«117554_j70016556860030_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at batch block `t`, read off the window's array as the call finds it. -/
def tpBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, for any proof data whose array
    is `V`'s and whose body leaves the block in place. -/
theorem tpBefore0_of {c : Dev nD} (dat : Dat τ (Elt F) Unit ℕ (UR sig nD τ) ℕ cfg0 c) (hA : dat.A 0 = V c (Pipeline.arrRef spec0 0))
    (hafter : ∀ t, dat.after 0 t = tpBlk V c 0 t) (t : Fin cfg0.N) (d) : dat.before 0 t d = tpBlk V c 0 t :=
  (dat.before_in_eq_fetched 0 rfl (fun _ => rfl) (fun _ _ _ => rfl) (fun t => by rw [hafter]; unfold Dat.blockOf tpBlk; rw [hA]; try rfl) t d).trans
    (by unfold Dat.fetched Dat.blockOf tpBlk; rw [hA]; try rfl)
theorem tpBefore1_of {c : Dev nD} (dat : Dat τ (Elt F) Unit ℕ (UR sig nD τ) ℕ cfg0 c) (hA : dat.A 1 = V c (Pipeline.arrRef spec0 1))
    (hafter : ∀ t, dat.after 1 t = tpBlk V c 1 t) (t : Fin cfg0.N) (d) : dat.before 1 t d = tpBlk V c 1 t :=
  (dat.before_in_eq_fetched 1 rfl (fun _ => rfl) (fun _ _ _ => rfl) (fun t => by rw [hafter]; unfold Dat.blockOf tpBlk; rw [hA]; try rfl) t d).trans
    (by unfold Dat.fetched Dat.blockOf tpBlk; rw [hA]; try rfl)

/-! ## What the body leaves in the output block -/

/-- The whole input block and the whole output block, as the body's loads and its store address them. -/
abbrev rowsRect : Rect S16x128x256 := Rect.unit (s := S16x128x256) ![0, 0, 0] S16x128x256.size inb_S16x128x256_S16x128x256_0_0_0
abbrev prodRect : Rect S16x256x256 := Rect.unit (s := S16x256x256) ![0, 0, 0] S16x256x256.size inb_S16x256x256_S16x256x256_0_0_0

/-- The output block after the body: its one store, of the batched product of the two loaded blocks. -/
def tpOut (x0 x1 : Vec F S16x128x256 .bf16) : Vec F S16x256x256 .bf16 :=
  View.canon [⟨prodRect, k0_pay1 (View.ld x0 rowsRect) (View.ld x1 rowsRect)⟩]

/-- That store covers the block. -/
theorem tpCover (p0 : Vec F S16x256x256 .bf16) (y : S16x256x256.Idx) :
    ∃ pc ∈ ([⟨prodRect, p0⟩] : List (View.Piece (Elt F) S16x256x256 .bf16)), y ∈ pc.1.set :=
  View.cover_of_tiled [⟨prodRect, p0⟩] S16x256x256.size (by rfl) y

/-! ## The body's triple -/

set_option maxHeartbeats 1000000 in
/-- On whole staging memrefs, the two inputs' at contents `x0`, `x1` and the output's at anything, the body runs to a
    state holding the inputs' as they were and the output's at `tpOut x0 x1`. -/
theorem tpKernel (c : Dev nD) (E : Set ℕ) (i : grid0.Coords)
    (arg1 : Memref sig .tc .vmem S16x128x256 .bf16) (harg1 : arg1.IsWhole) (arg2 : Memref sig .tc .vmem S16x128x256 .bf16) (harg2 : arg2.IsWhole)
    (arg3 : Memref sig .tc .vmem S16x256x256 .bf16) (harg3 : arg3.IsWhole)
    (x0 x1 : Vec F S16x128x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (tpOut x0 x1)) -∗ K ⟨⟩))
      ⊢ wp frame (wpE (defs₀ (F := F)) Variants.none c none) E (cc0__tp_kernel i arg1 harg1 arg2 harg2 arg3 harg3) K := by
  simp only [cc0__tp_kernel_eq_skeleton]; unfold cc0__tp_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tpCover _)

/-! ## The proof data -/

/-- The call's proof data on core `c`: the arrays as the call finds them; after the body each input's buffer at its
    block and the output's at `tpOut` of the two input blocks; the plain invariant; nothing owed; full shares. -/
def tpDat (c : Dev nD) : Dat τ (Elt F) Unit ℕ (UR sig nD τ) ℕ cfg0 c where
  A w := V c (Pipeline.arrRef spec0 w)
  after w t := match w with
    | ⟨0, _⟩ => tpBlk V c 0 t
    | ⟨1, _⟩ => tpBlk V c 1 t
    | ⟨2, _⟩ => tpOut (tpBlk V c 0 t) (tpBlk V c 1 t)
  Φ _ := Pipeline.ΦA spec0 c
  q _ := fullShare
  owed _ := 0

theorem tpA_eq (c : Dev nD) (w : Fin cfg0.W) : (tpDat V c).A w = V c (Pipeline.arrRef spec0 w) := by
  dsimp only [tpDat]
theorem tpAfter0 (c : Dev nD) (t : Fin cfg0.N) : (tpDat V c).after 0 t = tpBlk V c 0 t := by dsimp only [tpDat]
theorem tpAfter1 (c : Dev nD) (t : Fin cfg0.N) : (tpDat V c).after 1 t = tpBlk V c 1 t := by dsimp only [tpDat]
theorem tpAfter2 (c : Dev nD) (t : Fin cfg0.N) : (tpDat V c).after 2 t = tpOut (tpBlk V c 0 t) (tpBlk V c 1 t) := by dsimp only [tpDat]
theorem tpBefore0 (c : Dev nD) (t : Fin cfg0.N) (d) : (tpDat V c).before 0 t d = tpBlk V c 0 t :=
  tpBefore0_of V (tpDat V c) (tpA_eq V c 0) (tpAfter0 V c) t d
theorem tpBefore1 (c : Dev nD) (t : Fin cfg0.N) (d) : (tpDat V c).before 1 t d = tpBlk V c 1 t :=
  tpBefore1_of V (tpDat V c) (tpA_eq V c 1) (tpAfter1 V c) t d

/-! ## The body obligation -/

/-- What the body is called with at block `t`, the windows one by one, -/
def tpPre (c : Dev nD) (t : Fin cfg0.N) : sProp 𝕄 :=
  iprop((tpDat V c).Φ t.castSucc ∗ (tpDat V c).owesAt () t.castSucc
    ∗ (∃ d, owns (c : Thread nD τ) (st0_0 t) fullShare ((tpDat V c).before 0 t d))
    ∗ (∃ d, owns (c : Thread nD τ) (st0_1 t) fullShare ((tpDat V c).before 1 t d))
    ∗ (∃ d, owns (c : Thread nD τ) (st0_2 t) fullShare ((tpDat V c).before 2 t d)))

/-- and what it returns. -/
def tpPost (c : Dev nD) (t : Fin cfg0.N) : sProp 𝕄 :=
  iprop((tpDat V c).Φ t.succ ∗ (tpDat V c).owesAt () t.succ
    ∗ owns (c : Thread nD τ) (st0_0 t) fullShare ((tpDat V c).after 0 t)
    ∗ owns (c : Thread nD τ) (st0_1 t) fullShare ((tpDat V c).after 1 t)
    ∗ owns (c : Thread nD τ) (st0_2 t) fullShare ((tpDat V c).after 2 t))

/-- The body at any block: the inputs' memrefs hold their blocks, so the triple applies; the invariant and the
    core's dues pass through unread. -/
theorem tpBody (c : Dev nD) (t : Fin cfg0.N) :
    tpPre V c t ⊢ wp frame (wpE (defs₀ (F := F)) Variants.none c none) Set.univ (bodyAt0 t) (fun _ => tpPost V c t) := by
  unfold tpPre tpPost bodyAt0
  simp only [tpBefore0, tpBefore1]
  rw [show (tpDat V c).Φ t.succ = (tpDat V c).Φ t.castSucc from rfl,
    show (tpDat V c).owesAt () t.succ = (tpDat V c).owesAt () t.castSucc from rfl,
    tpAfter0, tpAfter1, tpAfter2]
  iintro ⟨HΦ, Ho, ⟨%d0, H0⟩, ⟨%d1, H1⟩, ⟨%d2, H2⟩⟩
  iapply (tpKernel c Set.univ _ _ _ _ _ _ _ (tpBlk V c 0 t) (tpBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every block. -/
theorem tpObligation (c : Dev nD) : BodyObligation (tpDat (F := F) V c) (defs₀ (F := F)) Variants.none () Set.univ := fun t => by
  rw [bigSep_W0, bigSep_W0]
  exact tpBody V c t

end Cert.Kernel.Hand

end
-- ==== Proof.BitsLinRuns.lean ====
/-
# The linear-layer call (the second kernel call), at any contents of the core's buffers

The call walks the 65536 flattened input features in eight stretches of 8192. At a stretch it loads the stretch's
columns of the activations `[64, 8192]` and of the weights `[1024, 8192]`, multiplies them (contracting the 8192
columns) and adds the product to a running total `[64, 1024]` kept in a scratch buffer: the total is set to zero at
the first stretch, and at the last stretch the total plus the bias row is stored into the output block, which is the
whole output array and is written back only then. So there are three kinds of stretch — the first, a middle one, the
last — and what the scratch holds after stretch `n` is a recursion on `n`; the region's invariant carries the scratch
at that value from one stretch to the next.
Everything is stated at a parameter `V`: the contents of the core's buffers when the call is entered.
-/
import proofs.«117554_j70016556860030_1_alg».proof.Proof.Gen.Kernel.Launch
import proofs.«117554_j70016556860030_1_alg».proof.Proof.Gen.Kernel.Skeleton
import proofs.«117554_j70016556860030_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at stretch `t`, read off the window's array as the call finds it. -/
def linBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every stretch, fetched there or not (the bias
    is fetched once: its block index never moves), for any proof data whose array is `V`'s and whose body leaves the
    block in place. -/
theorem linBefore0_of {c : Dev nD} (dat : Dat τ (Elt F) Unit ℕ (UR sig nD τ) ℕ cfg1 c) (hA : dat.A 0 = V c (Pipeline.arrRef spec1 0))
    (hafter : ∀ t, dat.after 0 t = linBlk V c 0 t) (t : Fin cfg1.N) (d) : dat.before 0 t d = linBlk V c 0 t :=
  (dat.before_in_eq_fetched 0 rfl (fun _ => rfl) (fun _ _ _ => rfl) (fun t => by rw [hafter]; unfold Dat.blockOf linBlk; rw [hA]; try rfl) t d).trans
    (by unfold Dat.fetched Dat.blockOf linBlk; rw [hA]; try rfl)
theorem linBefore1_of {c : Dev nD} (dat : Dat τ (Elt F) Unit ℕ (UR sig nD τ) ℕ cfg1 c) (hA : dat.A 1 = V c (Pipeline.arrRef spec1 1))
    (hafter : ∀ t, dat.after 1 t = linBlk V c 1 t) (t : Fin cfg1.N) (d) : dat.before 1 t d = linBlk V c 1 t :=
  (dat.before_in_eq_fetched 1 rfl (fun _ => rfl) (fun _ _ _ => rfl) (fun t => by rw [hafter]; unfold Dat.blockOf linBlk; rw [hA]; try rfl) t d).trans
    (by unfold Dat.fetched Dat.blockOf linBlk; rw [hA]; try rfl)
theorem linBefore2_of {c : Dev nD} (dat : Dat τ (Elt F) Unit ℕ (UR sig nD τ) ℕ cfg1 c) (hA : dat.A 2 = V c (Pipeline.arrRef spec1 2))
    (hafter : ∀ t, dat.after 2 t = linBlk V c 2 t) (t : Fin cfg1.N) (d) : dat.before 2 t d = linBlk V c 2 t :=
  (dat.before_in_eq_fetched 2 rfl (fun _ => rfl) (fun _ _ _ => rfl) (fun t => by rw [hafter]; unfold Dat.blockOf linBlk; rw [hA]; try rfl) t d).trans
    (by unfold Dat.fetched Dat.blockOf linBlk; rw [hA]; try rfl)

/-! ## The body's two branch conditions, decided over the eight stretches -/

/-- The body's first test: "this is stretch 0". -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)
/-- The body's second test: "this is stretch 7". -/
abbrev isLast (i : grid1.Coords) : Prop := k1_cond2 i = 1#1
theorem isLast_iff : ∀ t : Fin cfg1.N, isLast (grid1.coords t) ↔ t.val = 7 :=
  (by decide +kernel : ∀ t : Fin grid1.N, isLast (grid1.coords t) ↔ t.val = 7)

/-- The three inputs are never idle; the output is idle, and not written back, exactly off the last stretch. -/
theorem linLive0 : ∀ t : Fin cfg1.N, cfg1.idle 0 (grid1.coords t) = false := by decide +kernel
theorem linLive1 : ∀ t : Fin cfg1.N, cfg1.idle 1 (grid1.coords t) = false := by decide +kernel
theorem linLive2 : ∀ t : Fin cfg1.N, cfg1.idle 2 (grid1.coords t) = false := by decide +kernel
theorem linIdle3 : ∀ t : Fin cfg1.N, ¬isLast (grid1.coords t) → cfg1.idle 3 (grid1.coords t) = true := by decide +kernel
theorem linNoFlush3 : ∀ t : Fin cfg1.N, ¬isLast (grid1.coords t) → (cfg1.win 3).flush t = false := by decide +kernel
theorem linLive3 : ∀ t : Fin cfg1.N, isLast (grid1.coords t) → cfg1.idle 3 (grid1.coords t) = false := by decide +kernel

/-! ## The memrefs the body is called with -/

abbrev lm0 (t : Fin cfg1.N) : Memref sig .tc .vmem S64x8192 .bf16 := win1_0.stage (cfg1.slots t 0)
abbrev lh0 (t : Fin cfg1.N) : (lm0 t).IsWhole := hstage1_0 ((cfg1.slots t 0).cast nbuf1_0)
abbrev lm1 (t : Fin cfg1.N) : Memref sig .tc .vmem S1024x8192 .bf16 := win1_1.stage (cfg1.slots t 1)
abbrev lh1 (t : Fin cfg1.N) : (lm1 t).IsWhole := hstage1_1 ((cfg1.slots t 1).cast nbuf1_1)
abbrev lm2 (t : Fin cfg1.N) : Memref sig .tc .vmem S1024 .f32 := win1_2.stage (cfg1.slots t 2)
abbrev lh2 (t : Fin cfg1.N) : (lm2 t).IsWhole := hstage1_2 ((cfg1.slots t 2).cast nbuf1_2)
abbrev lm3 (t : Fin cfg1.N) : Memref sig .tc .vmem S64x1024 .f32 := win1_3.stage (cfg1.slots t 3)
abbrev lh3 (t : Fin cfg1.N) : (lm3 t).IsWhole := hstage1_3 ((cfg1.slots t 3).cast nbuf1_3)
/-- The running total's scratch buffer, whole; and the views through which contents are stated. -/
abbrev accM : Memref sig .tc .vmem S64x1024 .f32 := Memref.whole cc1_scratch0
abbrev accV : View sig .tc .vmem S64x1024 .f32 := accM.view
abbrev outV : View sig .tc .vmem S64x1024 .f32 := (Memref.whole cc1_stg3_0 : Memref sig .tc .vmem S64x1024 .f32).view

/-! ## The region's invariant, with the scratch held at a named value

Besides the scratch, the core's scoped buffers that this call's windows do not stage are the six staging buffers of
the first call; they ride along at anything. -/

/-- The invariant's shape: the six idle buffers at anything, then what is said of the scratch (`S`), and the generator register at some state. -/
def linHold (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

/-- What rides along untouched. -/
def linKeep (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ r, prngReg c r))

theorem linHold_open (c : Dev nD) (S : sProp 𝕄) : linHold c S ⊢ iprop(S ∗ linKeep (F := F) c) := by
  unfold linHold linKeep
  iintro ⟨⟨B0, B1, B2, B3, B4, B5, HS⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    iexact B5
  iexact Hg

theorem linHold_close (c : Dev nD) (S : sProp 𝕄) : iprop(S ∗ linKeep (F := F) c) ⊢ linHold c S := by
  unfold linHold linKeep
  iintro ⟨HS, ⟨B0, B1, B2, B3, B4, B5⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    iexact HS
  iexact Hg

/-- The plain invariant is this shape with the scratch at anything. -/
theorem linPhiA_eq (c : Dev nD) :
    (Pipeline.ΦA spec1 c : sProp 𝕄) = linHold c (iprop(∃ d, owns (c : Thread nD τ) accM fullShare d)) := by
  unfold Pipeline.ΦA linHold; rw [scopedRest1_eq]; simp only [accM, owns_whole]; try rfl

/-! ## The body on any staging memrefs, stretch kind by stretch kind

Each run's witness is the list of pieces the body's stores leave in a buffer, last store first, found by the run itself. -/

set_option maxHeartbeats 2000000 in
/-- FIRST stretch (and not the last): the scratch is zeroed and the stretch's product added; the output block is handed
    back as found. -/
noncomputable def linRunA (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : isFirst i) (hc1 : ¬isLast i)
    (x0 : Vec F S64x8192 .bf16) (x1 : Vec F S1024x8192 .bf16) (x2 : Vec F S1024 .f32) :
    { LS : List (View.Piece (Elt F) S64x1024 .f32) //
      ∀ (xi : Vec F S64x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__lin_kernel i arg1 harg1 arg2 harg2 arg3 harg3 arg4 harg4 arg5 harg5) K } := by
  refine ⟨?_, fun xi E K => ?run⟩
  case run =>
    simp only [cc1__lin_kernel_eq_skeleton]; unfold cc1__lin_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- A MIDDLE stretch: the stretch's product is added to the scratch as found (`xs`); the output block is handed back
    as found. -/
noncomputable def linRunB (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : ¬isLast i)
    (x0 : Vec F S64x8192 .bf16) (x1 : Vec F S1024x8192 .bf16) (x2 : Vec F S1024 .f32) (xs : Vec F S64x1024 .f32) :
    { LS : List (View.Piece (Elt F) S64x1024 .f32) //
      ∀ (xi : Vec F S64x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__lin_kernel i arg1 harg1 arg2 harg2 arg3 harg3 arg4 harg4 arg5 harg5) K } := by
  refine ⟨?_, fun xi E K => ?run⟩
  case run =>
    simp only [cc1__lin_kernel_eq_skeleton]; unfold cc1__lin_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- The LAST stretch (and not the first): the stretch's product is added to the scratch as found (`xs`), and the total
    plus the bias row is stored into the output block. -/
noncomputable def linRunC (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__lin_kernel i arg1 harg1 arg2 harg2 arg3 harg3 arg4 harg4 arg5 harg5) K } := by
  refine ⟨?_, ?_, fun E K => ?run⟩
  case run =>
    simp only [cc1__lin_kernel_eq_skeleton]; unfold cc1__lin_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Hand

end
-- ==== Proof.BitsLin.lean ====
/-
# The linear-layer call: the running total stretch by stretch, the invariant, the proof data, the body obligation

What the scratch holds after stretch `n` is defined by recursion on `n` from the three kinds of stretch; the region's
invariant before stretch `n + 1` holds the scratch at that value; the output block's contents matter only after the
last stretch, where the body stores the total plus the bias into it and the block is written back.
-/
import proofs.«117554_j70016556860030_1_alg».proof.Proof.Gen.Kernel.Launch
import proofs.«117554_j70016556860030_1_alg».proof.Proof.Gen.Kernel.Skeleton
import proofs.«117554_j70016556860030_1_alg».proof.Proof.Gen.Kernel.Points
import proofs.«117554_j70016556860030_1_alg».proof.Proof.BitsLinRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of stretch leaves -/

/-- A stand-in for the output block at the stretches that store nothing into it (nothing reads it there). -/
def linNoOut : Vec F S64x1024 .f32 := outV.read (Elt F) outV.junk

theorem linCoverA (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : isFirst i) (hc1 : ¬isLast i)
    (x0 : Vec F S64x8192 .bf16) (x1 : Vec F S1024x8192 .bf16) (x2 : Vec F S1024 .f32) (y : S64x1024.Idx) :
    ∃ pc ∈ (linRunA c i arg1 harg1 arg2 harg2 arg3 harg3 arg4 harg4 arg5 harg5 hc0 hc1 x0 x1 x2).1, y ∈ pc.1.set :=
  View.cover_of_tiledL (linRunA c i arg1 harg1 arg2 harg2 arg3 harg3 arg4 harg4 arg5 harg5 hc0 hc1 x0 x1 x2).1 S64x1024.size (by sl_kernel_rfl) y
/-- The scratch after the first stretch: its pieces read back. -/
def linAccA (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : isFirst i) (hc1 : ¬isLast i)
    (x0 : Vec F S64x8192 .bf16) (x1 : Vec F S1024x8192 .bf16) (x2 : Vec F S1024 .f32) : Vec F S64x1024 .f32 :=
  accV.read (Elt F) (accV.writes (Elt F) accV.junk (linRunA c i arg1 harg1 arg2 harg2 arg3 harg3 arg4 harg4 arg5 harg5 hc0 hc1 x0 x1 x2).1)

theorem linCoverB (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : ¬isLast i)
    (x0 : Vec F S64x8192 .bf16) (x1 : Vec F S1024x8192 .bf16) (x2 : Vec F S1024 .f32) (xs : Vec F S64x1024 .f32) (y : S64x1024.Idx) :
    ∃ pc ∈ (linRunB c i arg1 harg1 arg2 harg2 arg3 harg3 arg4 harg4 arg5 harg5 hc0 hc1 x0 x1 x2 xs).1, y ∈ pc.1.set :=
  View.cover_of_tiledL (linRunB c i arg1 harg1 arg2 harg2 arg3 harg3 arg4 harg4 arg5 harg5 hc0 hc1 x0 x1 x2 xs).1 S64x1024.size (by sl_kernel_rfl) y
/-- The scratch after a middle stretch, over what the stretch before left (`xs`). -/
def linAccB (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : ¬isLast i)
    (x0 : Vec F S64x8192 .bf16) (x1 : Vec F S1024x8192 .bf16) (x2 : Vec F S1024 .f32) (xs : Vec F S64x1024 .f32) : Vec F S64x1024 .f32 :=
  accV.read (Elt F) (accV.writes (Elt F) accV.junk (linRunB c i arg1 harg1 arg2 harg2 arg3 harg3 arg4 harg4 arg5 harg5 hc0 hc1 x0 x1 x2 xs).1)

theorem linCoverC (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) (y : S64x1024.Idx) :
    ∃ pc ∈ (linRunC c i arg1 harg1 arg2 harg2 arg3 harg3 arg4 harg4 arg5 harg5 hc0 hc1 x0 x1 x2 xs).2.1, y ∈ pc.1.set :=
  View.cover_of_tiledL (linRunC c i arg1 harg1 arg2 harg2 arg3 harg3 arg4 harg4 arg5 harg5 hc0 hc1 x0 x1 x2 xs).2.1 S64x1024.size (by sl_kernel_rfl) y
theorem linCoverOut (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) (y : S64x1024.Idx) :
    ∃ pc ∈ (linRunC c i arg1 harg1 arg2 harg2 arg3 harg3 arg4 harg4 arg5 harg5 hc0 hc1 x0 x1 x2 xs).1, y ∈ pc.1.set :=
  View.cover_of_tiledL (linRunC c i arg1 harg1 arg2 harg2 arg3 harg3 arg4 harg4 arg5 harg5 hc0 hc1 x0 x1 x2 xs).1 S64x1024.size (by sl_kernel_rfl) y
/-- The scratch, and the output block, after the last stretch, over what the stretch before left (`xs`). -/
def linAccC (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) : Vec F S64x1024 .f32 :=
  accV.read (Elt F) (accV.writes (Elt F) accV.junk (linRunC c i arg1 harg1 arg2 harg2 arg3 harg3 arg4 harg4 arg5 harg5 hc0 hc1 x0 x1 x2 xs).2.1)
def linOutC (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) : Vec F S64x1024 .f32 :=
  outV.read (Elt F) (outV.writes (Elt F) outV.junk (linRunC c i arg1 harg1 arg2 harg2 arg3 harg3 arg4 harg4 arg5 harg5 hc0 hc1 x0 x1 x2 xs).1)

/-! ## The accumulation -/

/-- After stretch `n`: the output block (a stand-in except after the last stretch) and the scratch. -/
def linOuts (c : Dev nD) : (n : ℕ) → n < cfg1.N → Vec F S64x1024 .f32 × Vec F S64x1024 .f32
  | 0, hn => (linNoOut, linAccA c (grid1.coords ⟨0, hn⟩) (lm0 ⟨0, hn⟩) (lh0 ⟨0, hn⟩) (lm1 ⟨0, hn⟩) (lh1 ⟨0, hn⟩) (lm2 ⟨0, hn⟩) (lh2 ⟨0, hn⟩) (lm3 ⟨0, hn⟩) (lh3 ⟨0, hn⟩) accM (Memref.isWhole_whole _) ((isFirst_iff ⟨0, hn⟩).mpr rfl) (fun h => by have h' := (isLast_iff ⟨0, hn⟩).mp h; (try dsimp only at h'); omega) (linBlk V c 0 ⟨0, hn⟩) (linBlk V c 1 ⟨0, hn⟩) (linBlk V c 2 ⟨0, hn⟩))
  | n + 1, hn =>
    if h1 : n + 1 = 7 then
      (linOutC c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) accM (Memref.isWhole_whole _) (fun h => absurd ((isFirst_iff _).mp h) (Nat.succ_ne_zero n)) ((isLast_iff ⟨n + 1, hn⟩).mpr h1) (linBlk V c 0 ⟨n + 1, hn⟩) (linBlk V c 1 ⟨n + 1, hn⟩) (linBlk V c 2 ⟨n + 1, hn⟩) (linOuts c n (Nat.lt_of_succ_lt hn)).2,
       linAccC c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) accM (Memref.isWhole_whole _) (fun h => absurd ((isFirst_iff _).mp h) (Nat.succ_ne_zero n)) ((isLast_iff ⟨n + 1, hn⟩).mpr h1) (linBlk V c 0 ⟨n + 1, hn⟩) (linBlk V c 1 ⟨n + 1, hn⟩) (linBlk V c 2 ⟨n + 1, hn⟩) (linOuts c n (Nat.lt_of_succ_lt hn)).2)
    else
      (linNoOut, linAccB c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) accM (Memref.isWhole_whole _) (fun h => absurd ((isFirst_iff _).mp h) (Nat.succ_ne_zero n)) (fun h => h1 ((isLast_iff ⟨n + 1, hn⟩).mp h)) (linBlk V c 0 ⟨n + 1, hn⟩) (linBlk V c 1 ⟨n + 1, hn⟩) (linBlk V c 2 ⟨n + 1, hn⟩) (linOuts c n (Nat.lt_of_succ_lt hn)).2)

theorem linOuts_first (c : Dev nD) (t : Fin cfg1.N) (h0 : t.val = 0) (hl : ¬isLast (grid1.coords t)) :
    linOuts V c t.val t.isLt = (linNoOut, linAccA c (grid1.coords t) (lm0 t) (lh0 t) (lm1 t) (lh1 t) (lm2 t) (lh2 t) (lm3 t) (lh3 t) accM (Memref.isWhole_whole _) ((isFirst_iff t).mpr h0) hl (linBlk V c 0 t) (linBlk V c 1 t) (linBlk V c 2 t)) := by
  obtain ⟨n, hn⟩ := t
  cases n with
  | zero => exact rfl
  | succ n => exact absurd h0 (Nat.succ_ne_zero n)

theorem linOuts_mid (c : Dev nD) (t : Fin cfg1.N) (h0 : t.val ≠ 0) (h1 : t.val ≠ 7) :
    linOuts V c t.val t.isLt = (linNoOut, linAccB c (grid1.coords t) (lm0 t) (lh0 t) (lm1 t) (lh1 t) (lm2 t) (lh2 t) (lm3 t) (lh3 t) accM (Memref.isWhole_whole _) (fun h => h0 ((isFirst_iff t).mp h)) (fun h => h1 ((isLast_iff t).mp h)) (linBlk V c 0 t) (linBlk V c 1 t) (linBlk V c 2 t)
      (linOuts V c (t.val - 1) (Nat.lt_of_le_of_lt (Nat.sub_le _ _) t.isLt)).2) := by
  obtain ⟨n, hn⟩ := t
  cases n with
  | zero => exact absurd rfl h0
  | succ n => exact (dif_neg h1).trans rfl

theorem linOuts_last (c : Dev nD) (t : Fin cfg1.N) (h0 : t.val ≠ 0) (h1 : t.val = 7) :
    linOuts V c t.val t.isLt = (linOutC c (grid1.coords t) (lm0 t) (lh0 t) (lm1 t) (lh1 t) (lm2 t) (lh2 t) (lm3 t) (lh3 t) accM (Memref.isWhole_whole _) (fun h => h0 ((isFirst_iff t).mp h)) ((isLast_iff t).mpr h1) (linBlk V c 0 t) (linBlk V c 1 t) (linBlk V c 2 t)
        (linOuts V c (t.val - 1) (Nat.lt_of_le_of_lt (Nat.sub_le _ _) t.isLt)).2,
      linAccC c (grid1.coords t) (lm0 t) (lh0 t) (lm1 t) (lh1 t) (lm2 t) (lh2 t) (lm3 t) (lh3 t) accM (Memref.isWhole_whole _) (fun h => h0 ((isFirst_iff t).mp h)) ((isLast_iff t).mpr h1) (linBlk V c 0 t) (linBlk V c 1 t) (linBlk V c 2 t)
        (linOuts V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before stretch `n`: the plain invariant before the first; afterwards the scratch at what stretch `n - 1` left. -/
def linPhi (c : Dev nD) : (n : ℕ) → n ≤ cfg1.N → sProp 𝕄
  | 0, _ => Pipeline.ΦA spec1 c
  | n + 1, hn => linHold c (owns (c : Thread nD τ) accM fullShare (linOuts V c n hn).2)

theorem linPhi_zero (c : Dev nD) (n : ℕ) (h : n ≤ cfg1.N) (hz : n = 0) : linPhi V c n h = Pipeline.ΦA spec1 c := by
  subst hz; rfl
theorem linPhi_succ (c : Dev nD) (n : ℕ) (hn : n < cfg1.N) :
    linPhi V c (n + 1) hn = linHold c (owns (c : Thread nD τ) accM fullShare (linOuts V c n hn).2) := rfl
theorem linPhi_pos (c : Dev nD) (n : ℕ) (h : n ≤ cfg1.N) (hz : n ≠ 0) :
    linPhi V c n h = linHold c (owns (c : Thread nD τ) accM fullShare (linOuts V c (n - 1) (by omega)).2) := by
  cases n with
  | zero => exact absurd rfl hz
  | succ n => rfl

/-! ## The proof data -/

/-- The call's proof data on core `c`: the arrays as the call finds them; after the body each input's buffer at its
    block and the output's at `linOuts`' first component; the invariant `linPhi`; nothing owed; full shares. -/
def linDat (c : Dev nD) : Dat τ (Elt F) Unit ℕ (UR sig nD τ) ℕ cfg1 c where
  A w := V c (Pipeline.arrRef spec1 w)
  after w t := match w with
    | ⟨0, _⟩ => linBlk V c 0 t
    | ⟨1, _⟩ => linBlk V c 1 t
    | ⟨2, _⟩ => linBlk V c 2 t
    | ⟨3, _⟩ => (linOuts V c t.val t.isLt).1
  Φ t := linPhi V c t.val (Nat.le_of_lt_succ t.isLt)
  q _ := fullShare
  owed _ := 0

theorem linA_eq (c : Dev nD) (w : Fin cfg1.W) : (linDat V c).A w = V c (Pipeline.arrRef spec1 w) := by
  dsimp only [linDat]
theorem linPhi_castSucc (c : Dev nD) (t : Fin cfg1.N) :
    (linDat V c).Φ t.castSucc = linPhi V c t.val (Nat.le_of_lt t.isLt) := by
  dsimp only [linDat]; simp only [Fin.coe_castSucc]
theorem linAfter0 (c : Dev nD) (t : Fin cfg1.N) : (linDat V c).after 0 t = linBlk V c 0 t := by dsimp only [linDat]
theorem linAfter1 (c : Dev nD) (t : Fin cfg1.N) : (linDat V c).after 1 t = linBlk V c 1 t := by dsimp only [linDat]
theorem linAfter2 (c : Dev nD) (t : Fin cfg1.N) : (linDat V c).after 2 t = linBlk V c 2 t := by dsimp only [linDat]
theorem linAfter3 (c : Dev nD) (t : Fin cfg1.N) : (linDat V c).after 3 t = (linOuts V c t.val t.isLt).1 := by dsimp only [linDat]
theorem linBefore0 (c : Dev nD) (t : Fin cfg1.N) (d) : (linDat V c).before 0 t d = linBlk V c 0 t :=
  linBefore0_of V (linDat V c) (linA_eq V c 0) (linAfter0 V c) t d
theorem linBefore1 (c : Dev nD) (t : Fin cfg1.N) (d) : (linDat V c).before 1 t d = linBlk V c 1 t :=
  linBefore1_of V (linDat V c) (linA_eq V c 1) (linAfter1 V c) t d
theorem linBefore2 (c : Dev nD) (t : Fin cfg1.N) (d) : (linDat V c).before 2 t d = linBlk V c 2 t :=
  linBefore2_of V (linDat V c) (linA_eq V c 2) (linAfter2 V c) t d

/-! ## The body obligation -/

def linPre (c : Dev nD) (t : Fin cfg1.N) : sProp 𝕄 :=
  iprop((linDat V c).Φ t.castSucc ∗ (linDat V c).owesAt () t.castSucc
    ∗ (∃ d, owns (c : Thread nD τ) (lm0 t) fullShare ((linDat V c).before 0 t d))
    ∗ (∃ d, owns (c : Thread nD τ) (lm1 t) fullShare ((linDat V c).before 1 t d))
    ∗ (∃ d, owns (c : Thread nD τ) (lm2 t) fullShare ((linDat V c).before 2 t d))
    ∗ (∃ d, owns (c : Thread nD τ) (lm3 t) fullShare ((linDat V c).before 3 t d)))

def linPost (c : Dev nD) (t : Fin cfg1.N) : sProp 𝕄 :=
  iprop((linDat V c).Φ t.succ ∗ (linDat V c).owesAt () t.succ
    ∗ (linDat V c).leavesExact 0 t
    ∗ (linDat V c).leavesExact 1 t
    ∗ (linDat V c).leavesExact 2 t
    ∗ (linDat V c).leavesExact 3 t)

set_option maxHeartbeats 4800000 in
/-- The body at any stretch: the inputs' memrefs hold their blocks; which kind of stretch it is is decided from the
    stretch's number; the invariant hands the body the scratch (at anything before the first stretch, else at what the
    stretch before left) and takes it back at this stretch's value; the six idle buffers, the generator register and
    the core's dues pass through. -/
theorem linBody (c : Dev nD) (t : Fin cfg1.N) :
    linPre V c t ⊢ wp frame (wpE (defs₀ (F := F)) Variants.none c none) Set.univ (bodyAt1 t) (fun _ => linPost V c t) := by
  unfold linPre linPost bodyAt1
  simp only [linBefore0, linBefore1, linBefore2]
  rw [show (linDat V c).owesAt () t.succ = (linDat V c).owesAt () t.castSucc from rfl]
  rw [show (linDat V c).Φ t.succ = linPhi V c (t.val + 1) t.isLt from rfl, linPhi_succ]
  rw [show (linDat V c).leavesExact 0 t = owns (c : Thread nD τ) (lm0 t) fullShare ((linDat V c).after 0 t) from by
    unfold Dat.leavesExact; rw [linLive0 t], linAfter0]
  rw [show (linDat V c).leavesExact 1 t = owns (c : Thread nD τ) (lm1 t) fullShare ((linDat V c).after 1 t) from by
    unfold Dat.leavesExact; rw [linLive1 t], linAfter1]
  rw [show (linDat V c).leavesExact 2 t = owns (c : Thread nD τ) (lm2 t) fullShare ((linDat V c).after 2 t) from by
    unfold Dat.leavesExact; rw [linLive2 t], linAfter2]
  have hN : t.val < 8 := lt_of_lt_of_eq t.isLt (show cfg1.N = 8 from N_1)
  by_cases h0 : t.val = 0
  · have hl : ¬isLast (grid1.coords t) := fun h => by have h' := (isLast_iff t).mp h; omega
    rw [Dat.leavesExact_idle (linDat V c) 3 t (linIdle3 t hl) (linNoFlush3 t hl)]
    rw [linOuts_first V c t h0 hl]
    unfold linAccA; (try dsimp only)
    rw [linPhi_castSucc V c t, linPhi_zero V c _ _ h0, linPhiA_eq]
    iintro ⟨HΦ, Ho, ⟨%d0, H0⟩, ⟨%d1, H1⟩, ⟨%d2, H2⟩, ⟨%d3, H3⟩⟩
    ihave HΦ' := (linHold_open c _) $$ HΦ
    icases HΦ' with ⟨HS, Hkeep⟩
    iapply ((linRunA c (grid1.coords t) _ _ _ _ _ _ _ _ _ _ ((isFirst_iff t).mpr h0) hl (linBlk V c 0 t) (linBlk V c 1 t) (linBlk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hkeep]
    · iapply (linHold_close c _)
      isplitl [HS]
      · unfold owns; iexists _; isplitr
        swap; · iexact HS
        ipureintro; exact View.read_writes_of_cover _ _ _ _ _ (linCoverA c _ _ _ _ _ _ _ _ _ _ _ _ _ _ _ _)
      iexact Hkeep
    isplitl [Ho]; · iexact Ho
    isplitl [H0]; · iexact H0
    isplitl [H1]; · iexact H1
    isplitl [H2]; · iexact H2
    iexists _; iexact H3
  · by_cases h7 : t.val = 7
    · have hl : isLast (grid1.coords t) := (isLast_iff t).mpr h7
      rw [show (linDat V c).leavesExact 3 t = owns (c : Thread nD τ) (lm3 t) fullShare ((linDat V c).after 3 t) from by
        unfold Dat.leavesExact; rw [linLive3 t hl], linAfter3]
      rw [linOuts_last V c t h0 h7]
      unfold linOutC linAccC; (try dsimp only)
      rw [linPhi_castSucc V c t, linPhi_pos V c _ _ h0]
      iintro ⟨HΦ, Ho, ⟨%d0, H0⟩, ⟨%d1, H1⟩, ⟨%d2, H2⟩, ⟨%d3, H3⟩⟩
      ihave HΦ' := (linHold_open c _) $$ HΦ
      icases HΦ' with ⟨HS, Hkeep⟩
      iapply ((linRunC c (grid1.coords t) _ _ _ _ _ _ _ _ _ _ (fun h => h0 ((isFirst_iff t).mp h)) hl (linBlk V c 0 t) (linBlk V c 1 t) (linBlk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hkeep]
      · iapply (linHold_close c _)
        isplitl [HS]
        · unfold owns; iexists _; isplitr
          swap; · iexact HS
          ipureintro; exact View.read_writes_of_cover _ _ _ _ _ (linCoverC c _ _ _ _ _ _ _ _ _ _ _ _ _ _ _ _ _)
        iexact Hkeep
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (linCoverOut c _ _ _ _ _ _ _ _ _ _ _ _ _ _ _ _ _)
    · have hl : ¬isLast (grid1.coords t) := fun h => h7 ((isLast_iff t).mp h)
      rw [Dat.leavesExact_idle (linDat V c) 3 t (linIdle3 t hl) (linNoFlush3 t hl)]
      rw [linOuts_mid V c t h0 h7]
      unfold linAccB; (try dsimp only)
      rw [linPhi_castSucc V c t, linPhi_pos V c _ _ h0]
      iintro ⟨HΦ, Ho, ⟨%d0, H0⟩, ⟨%d1, H1⟩, ⟨%d2, H2⟩, ⟨%d3, H3⟩⟩
      ihave HΦ' := (linHold_open c _) $$ HΦ
      icases HΦ' with ⟨HS, Hkeep⟩
      iapply ((linRunB c (grid1.coords t) _ _ _ _ _ _ _ _ _ _ (fun h => h0 ((isFirst_iff t).mp h)) hl (linBlk V c 0 t) (linBlk V c 1 t) (linBlk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hkeep]
      · iapply (linHold_close c _)
        isplitl [HS]
        · unfold owns; iexists _; isplitr
          swap; · iexact HS
          ipureintro; exact View.read_writes_of_cover _ _ _ _ _ (linCoverB c _ _ _ _ _ _ _ _ _ _ _ _ _ _ _ _ _)
        iexact Hkeep
      isplitl [Ho]; · iexact Ho
      isplitl [H0]; · iexact H0
      isplitl [H1]; · iexact H1
      isplitl [H2]; · iexact H2
      iexists _; iexact H3

/-- The library's body obligation, at every stretch. -/
theorem linObligation (c : Dev nD) : BodyObligation (linDat (F := F) V c) (defs₀ (F := F)) Variants.none () Set.univ := fun t => by
  rw [bigSep_W1, bigSep_W1]
  exact linBody V c t

/-- What the region hands the call (the plain invariant) is the invariant before the first stretch, -/
theorem linIn (c : Dev nD) : Pipeline.ΦA spec1 c ⊢ (linDat V c).Φ 0 := by
  rw [show (linDat V c).Φ 0 = linPhi V c 0 (Nat.zero_le _) from rfl, linPhi_zero V c 0 _ rfl]
  try exact Idealize.SL.BI.Entails.refl _

/-- and after the last stretch the invariant gives the plain one back: the scratch's value is forgotten. -/
theorem linOut (c : Dev nD) : (linDat V c).Φ (Fin.last cfg1.N) ⊢ Pipeline.ΦA spec1 c := by
  have ht : (Fin.last cfg1.N).val ≠ 0 := by rw [Fin.val_last]; have : cfg1.N = 8 := N_1; omega
  rw [show (linDat V c).Φ (Fin.last cfg1.N) = linPhi V c (Fin.last cfg1.N).val (Nat.le_of_lt_succ (Fin.last cfg1.N).isLt) from rfl,
    linPhi_pos V c _ _ ht, linPhiA_eq]
  iintro H
  ihave H' := (linHold_open c _) $$ H
  icases H' with ⟨HS, Hkeep⟩
  iapply (linHold_close c _)
  isplitl [HS]
  · iexists _; iexact HS
  iexact Hkeep

end Cert.Kernel.Hand

end
-- ==== Proof.BitsRun.lean ====
/-
# The whole program: host operations, the tensor-product call, host operations, the linear-layer call

The contents of the core's unscoped buffers are followed through @main's four items: the launch memory; after the
twenty host operations that gather and convert the rows; after the first call, whose output array holds what its
write-backs leave; after the reshape and the weights' conversion; after the second call, likewise. Each call is
entered from "every unscoped buffer at the contents before it" and left at the contents after it, its own arrays
split out for the pipeline and put back. The conclusion reads every unscoped buffer of the final memory at the last
contents; the argument arrays walk back through the four items to the launch memory, no item writing one.
-/
import proofs.«117554_j70016556860030_1_alg».proof.Proof.Gen.Kernel.Launch
import proofs.«117554_j70016556860030_1_alg».proof.Proof.Gen.Kernel.Skeleton
import proofs.«117554_j70016556860030_1_alg».proof.Proof.Gen.Kernel.Points
import proofs.«117554_j70016556860030_1_alg».proof.Proof.Gen.Kernel.Regions
import proofs.«117554_j70016556860030_1_alg».proof.Proof.BitsTp
import proofs.«117554_j70016556860030_1_alg».proof.Proof.BitsLin
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first stretch of host operations (the first call's entry). -/
abbrev B1 : Dev nD → Valuation τ sig (Elt F) := fun c => StableHlo.after hostOps0 (B0 m ρ c)
/-- The same read at the core's references. -/
abbrev E1 : (c : Dev nD) → (b : Ref sig .tc) → Buf (Elt F) ((c : Thread nD τ).loc b) := fun c b => B1 m ρ c b
/-- At the first call's exit: its arrays at what the pipeline leaves, every other buffer as entered. -/
def B2 (c : Dev nD) : Valuation τ sig (Elt F) :=
  Pipeline.withArrays spec0 c (B1 m ρ c) fun w => (tpDat (E1 m ρ) c).arrAt w cfg0.N
theorem B2_arr (c : Dev nD) (w : Fin cfg0.W) :
    B2 m ρ c (Proc.devRef .tc (Pipeline.arrRef spec0 w)) = (tpDat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem tpExit (c : Dev nD) (w : Fin cfg0.W) : (tpDat (E1 m ρ) c).arrAt w cfg0.N = E2 m ρ c (Pipeline.arrRef spec0 w) :=
  (B2_arr m ρ c w).symm
theorem tpRest (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations (the second call's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second call's exit. -/
def B4 (c : Dev nD) : Valuation τ sig (Elt F) :=
  Pipeline.withArrays spec1 c (B3 m ρ c) fun w => (linDat (E3 m ρ) c).arrAt w cfg1.N
theorem B4_arr (c : Dev nD) (w : Fin cfg1.W) :
    B4 m ρ c (Proc.devRef .tc (Pipeline.arrRef spec1 w)) = (linDat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem linExit (c : Dev nD) (w : Fin cfg1.W) : (linDat (E3 m ρ) c).arrAt w cfg1.N = E4 m ρ c (Pipeline.arrRef spec1 w) :=
  (B4_arr m ρ c w).symm
theorem linRest (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## The argument arrays end as launched

No host operation writes an argument; the first call stages none; the second call stages the bias as an input, which
the pipeline leaves as entered. -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl
theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := (B4_arr m ρ c 2).trans (((linDat (E3 m ρ) c).arrAt_in 2 rfl _).trans (linA_eq (E3 m ρ) c 2))
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

/-- The result array ends at what the second call's write-back leaves. -/
theorem B4_main_v19 (c : Dev nD) : B4 m ρ c (Proc.devRef .tc main_v19) = (linDat (E3 m ρ) c).arrAt 3 cfg1.N :=
  B4_arr m ρ c 3

/-! ## The proof data family and what rides along -/

/-- No call has a prefetched table. -/
abbrev tabs : (p : Fin 2) → (pcfgs (F := F) p).Adm := fun p => (cfgs p).toPCfg_adm
/-- Each call's proof data, at its entry contents. -/
def datOf : (p : Fin 2) → (c : Dev nD) → Dat τ (Elt F) Unit ℕ (UR sig nD τ) ℕ (Pipeline.pin (pcfgs (F := F)) tabs p) c
  | ⟨0, _⟩ => fun c => tpDat (E1 m ρ) c
  | ⟨1, _⟩ => fun c => linDat (E3 m ρ) c
abbrev noVar : Variants := Variants.none
/-- No core owes another anything. -/
abbrev noL : GSem nD τ sig → Finset Unit := fun _ => ∅
abbrev noLv : GSem nD τ sig → Unit → ℕ := fun _ _ => 0
/-- Beside the buffers, through every item: the generator register at some state, and the core owing nothing. -/
abbrev Ride (c : Dev nD) : sProp 𝕄 := iprop((∃ r, prngReg c r) ∗ ∃ W, owes (c : Thread nD τ) (0 : CellTallies nD τ sig Unit) W)
/-- A stretch of host operations as an item, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues. -/
abbrev Last (c : Dev nD) : sProp 𝕄 := iprop(StableHlo.held (c : Thread nD τ) (Pipeline.ucRefs τ sig) (B4 m ρ c) ∗ ∃ r, prngReg c r)

/-! ## The two calls as items -/

set_option backward.isDefEq.respectTransparency.types false in
/-- The first call: entered from every unscoped buffer at `B1`, left at `B2`. -/
def tpItem : Pipeline.RegionSeg (pcfgs (F := F)) tabs (datOf m ρ) () defs₀ noVar noL noLv 0 where
  win := launch0.win.to₀
  block_pos := launch0.block_pos
  stage_whole := launch0.stage_whole
  K := PEmpty
  osem k := k.elim
  ho := Pipeline.OwnSemFacts.none _
  hbody c := (tpObligation (E1 m ρ) c).loose
  hwaits := Pipeline.hwaits_of_owed_zero _ _ _ _ noL noLv 0 fun _ _ => rfl
  pre c := iprop(StableHlo.held (c : Thread nD τ) (Pipeline.ucRefs τ sig) (B1 m ρ c) ∗ Ride c)
  post c := iprop(StableHlo.held (c : Thread nD τ) (Pipeline.ucRefs τ sig) (B2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) tabs (datOf m ρ) launch0.win launch0.arr_whole c
      ((datOf m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datOf m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (datOf m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (datOf m ρ) ((datOf m ρ 0 c).share_full fun _ => rfl)
      (E1 m ρ c) (E2 m ρ c) ((datOf m ρ 0 c).arrAt · cfg0.N) (tpExit m ρ c) (tpRest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `B3`, left at `B4`; its invariant is entered from the
    plain one and gives the plain one back (the scratch's value named in between). -/
def linItem : Pipeline.RegionSeg (pcfgs (F := F)) tabs (datOf m ρ) () defs₀ noVar noL noLv 1 where
  win := launch1.win.to₀
  block_pos := launch1.block_pos
  stage_whole := launch1.stage_whole
  K := PEmpty
  osem k := k.elim
  ho := Pipeline.OwnSemFacts.none _
  hbody c := (linObligation (E3 m ρ) c).loose
  hwaits := Pipeline.hwaits_of_owed_zero _ _ _ _ noL noLv 1 fun _ _ => rfl
  pre c := iprop(StableHlo.held (c : Thread nD τ) (Pipeline.ucRefs τ sig) (B3 m ρ c) ∗ Ride c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) tabs (datOf m ρ) launch1.win launch1.arr_whole c
      ((datOf m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datOf m ρ 1 c).Φ 0 = Pipeline.ΦA spec1 c from
      (show (linDat (E3 m ρ) c).Φ 0 = linPhi (E3 m ρ) c 0 (Nat.zero_le _) from rfl).trans (linPhi_zero (E3 m ρ) c 0 _ rfl)]
    unfold Pipeline.ΦA
    iintro ⟨Hp, -, Hr⟩
    isplitl [Hr]; · iexact Hr
    iexact Hp
  hout c := by
    rw [Pipeline.ownSems0_none]
    have hback : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (linOut (E3 m ρ) c).trans hback
  hexit c := by
    have hjoin := Pipeline.unscopedBufs_of_arrays (p := 1) (pcfgs (F := F)) tabs (Ix := Unit) (Name := ℕ) (U := UR sig nD τ) (Lvl := ℕ)
      launch1.win launch1.arr_whole c (datOf m ρ) ((datOf m ρ 1 c).share_full fun _ => rfl)
      (E3 m ρ c) (E4 m ρ c) ((datOf m ρ 1 c).arrAt · cfg1.N) (linExit m ρ c) (linRest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

abbrev items : List (Pipeline.Seg (pcfgs (F := F)) tabs (datOf m ρ) () defs₀ noVar noL noLv) :=
  [ .host (hostItem hostOps0 hostOps0_sub hostOps0_fresh (B0 m ρ)),
    .region (tpItem m ρ),
    .host (hostItem hostOps1 hostOps1_sub hostOps1_fresh (B2 m ρ)),
    .region (linItem m ρ) ]
/-- @main is the run of the four items. -/
theorem main_items (c : Dev nD) : main (F := F) c = Pipeline.Seg.run (items m ρ) := (main_chain c).trans (by chain_rfl)

set_option backward.isDefEq.respectTransparency.types false in
/-- THE RUN, at any `F`: from any memory with zero counters, every weakly fair execution of @main on the cores
    terminates, nothing faulting, and every unscoped buffer of the final memory holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) tabs (datOf m ρ) () cellOf_inj emb₁ defs₀ noVar noL noLv m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Ride c)) (Tₙ := Last m ρ)
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- THE FRAME, at any `F`: the run, read at the six argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c)⟩) (run m ρ)

end Cert.Kernel.Hand

end
-- ==== Proof.IdealTp.lean ====
/-
# The tensor-product call (the first of the two kernel calls), at any contents of the core's buffers

The call walks the batch in four blocks of sixteen entries. At a block it loads the sixteen entries' two row
arrays `[16, 128, 256]` whole, multiplies them as one batched matrix product contracting the 128 positions, and stores
the `[16, 256, 256]` result whole into the output block; nothing is kept from one block to the next. So what the
output block holds after the body is one pure function of the two input blocks, the same at every block, and the
region's invariant is the plain one (the buffers no window stages at anything, the generator register at some state).
Everything is stated at a parameter `V`: the contents of the core's buffers when the call is entered.
-/
import proofs.«117554_j70016556860030_1_alg».proof.Proof.Gen.KernelIdeal.Launch
import proofs.«117554_j70016556860030_1_alg».proof.Proof.Gen.KernelIdeal.Skeleton
import proofs.«117554_j70016556860030_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at batch block `t`, read off the window's array as the call finds it. -/
def tpBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, for any proof data whose array
    is `V`'s and whose body leaves the block in place. -/
theorem tpBefore0_of {c : Dev nD} (dat : Dat τ (Elt F) Unit ℕ (UR sig nD τ) ℕ cfg0 c) (hA : dat.A 0 = V c (Pipeline.arrRef spec0 0))
    (hafter : ∀ t, dat.after 0 t = tpBlk V c 0 t) (t : Fin cfg0.N) (d) : dat.before 0 t d = tpBlk V c 0 t :=
  (dat.before_in_eq_fetched 0 rfl (fun _ => rfl) (fun _ _ _ => rfl) (fun t => by rw [hafter]; unfold Dat.blockOf tpBlk; rw [hA]; try rfl) t d).trans
    (by unfold Dat.fetched Dat.blockOf tpBlk; rw [hA]; try rfl)
theorem tpBefore1_of {c : Dev nD} (dat : Dat τ (Elt F) Unit ℕ (UR sig nD τ) ℕ cfg0 c) (hA : dat.A 1 = V c (Pipeline.arrRef spec0 1))
    (hafter : ∀ t, dat.after 1 t = tpBlk V c 1 t) (t : Fin cfg0.N) (d) : dat.before 1 t d = tpBlk V c 1 t :=
  (dat.before_in_eq_fetched 1 rfl (fun _ => rfl) (fun _ _ _ => rfl) (fun t => by rw [hafter]; unfold Dat.blockOf tpBlk; rw [hA]; try rfl) t d).trans
    (by unfold Dat.fetched Dat.blockOf tpBlk; rw [hA]; try rfl)

/-! ## What the body leaves in the output block -/

/-- The whole input block and the whole output block, as the body's loads and its store address them. -/
abbrev rowsRect : Rect S16x128x256 := Rect.unit (s := S16x128x256) ![0, 0, 0] S16x128x256.size inb_S16x128x256_S16x128x256_0_0_0
abbrev prodRect : Rect S16x256x256 := Rect.unit (s := S16x256x256) ![0, 0, 0] S16x256x256.size inb_S16x256x256_S16x256x256_0_0_0

/-- The output block after the body: its one store, of the batched product of the two loaded blocks. -/
def tpOut (x0 x1 : Vec F S16x128x256 .bf16) : Vec F S16x256x256 .bf16 :=
  View.canon [⟨prodRect, k0_pay1 (View.ld x0 rowsRect) (View.ld x1 rowsRect)⟩]

/-- That store covers the block. -/
theorem tpCover (p0 : Vec F S16x256x256 .bf16) (y : S16x256x256.Idx) :
    ∃ pc ∈ ([⟨prodRect, p0⟩] : List (View.Piece (Elt F) S16x256x256 .bf16)), y ∈ pc.1.set :=
  View.cover_of_tiled [⟨prodRect, p0⟩] S16x256x256.size (by rfl) y

/-! ## The body's triple -/

set_option maxHeartbeats 1000000 in
/-- On whole staging memrefs, the two inputs' at contents `x0`, `x1` and the output's at anything, the body runs to a
    state holding the inputs' as they were and the output's at `tpOut x0 x1`. -/
theorem tpKernel (c : Dev nD) (E : Set ℕ) (i : grid0.Coords)
    (arg1 : Memref sig .tc .vmem S16x128x256 .bf16) (harg1 : arg1.IsWhole) (arg2 : Memref sig .tc .vmem S16x128x256 .bf16) (harg2 : arg2.IsWhole)
    (arg3 : Memref sig .tc .vmem S16x256x256 .bf16) (harg3 : arg3.IsWhole)
    (x0 x1 : Vec F S16x128x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (tpOut x0 x1)) -∗ K ⟨⟩))
      ⊢ wp frame (wpE (defs₀ (F := F)) Variants.none c none) E (cc0__tp_kernel i arg1 harg1 arg2 harg2 arg3 harg3) K := by
  simp only [cc0__tp_kernel_eq_skeleton]; unfold cc0__tp_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tpCover _)

/-! ## The proof data -/

/-- The call's proof data on core `c`: the arrays as the call finds them; after the body each input's buffer at its
    block and the output's at `tpOut` of the two input blocks; the plain invariant; nothing owed; full shares. -/
def tpDat (c : Dev nD) : Dat τ (Elt F) Unit ℕ (UR sig nD τ) ℕ cfg0 c where
  A w := V c (Pipeline.arrRef spec0 w)
  after w t := match w with
    | ⟨0, _⟩ => tpBlk V c 0 t
    | ⟨1, _⟩ => tpBlk V c 1 t
    | ⟨2, _⟩ => tpOut (tpBlk V c 0 t) (tpBlk V c 1 t)
  Φ _ := Pipeline.ΦA spec0 c
  q _ := fullShare
  owed _ := 0

theorem tpA_eq (c : Dev nD) (w : Fin cfg0.W) : (tpDat V c).A w = V c (Pipeline.arrRef spec0 w) := by
  dsimp only [tpDat]
theorem tpAfter0 (c : Dev nD) (t : Fin cfg0.N) : (tpDat V c).after 0 t = tpBlk V c 0 t := by dsimp only [tpDat]
theorem tpAfter1 (c : Dev nD) (t : Fin cfg0.N) : (tpDat V c).after 1 t = tpBlk V c 1 t := by dsimp only [tpDat]
theorem tpAfter2 (c : Dev nD) (t : Fin cfg0.N) : (tpDat V c).after 2 t = tpOut (tpBlk V c 0 t) (tpBlk V c 1 t) := by dsimp only [tpDat]
theorem tpBefore0 (c : Dev nD) (t : Fin cfg0.N) (d) : (tpDat V c).before 0 t d = tpBlk V c 0 t :=
  tpBefore0_of V (tpDat V c) (tpA_eq V c 0) (tpAfter0 V c) t d
theorem tpBefore1 (c : Dev nD) (t : Fin cfg0.N) (d) : (tpDat V c).before 1 t d = tpBlk V c 1 t :=
  tpBefore1_of V (tpDat V c) (tpA_eq V c 1) (tpAfter1 V c) t d

/-! ## The body obligation -/

/-- What the body is called with at block `t`, the windows one by one, -/
def tpPre (c : Dev nD) (t : Fin cfg0.N) : sProp 𝕄 :=
  iprop((tpDat V c).Φ t.castSucc ∗ (tpDat V c).owesAt () t.castSucc
    ∗ (∃ d, owns (c : Thread nD τ) (st0_0 t) fullShare ((tpDat V c).before 0 t d))
    ∗ (∃ d, owns (c : Thread nD τ) (st0_1 t) fullShare ((tpDat V c).before 1 t d))
    ∗ (∃ d, owns (c : Thread nD τ) (st0_2 t) fullShare ((tpDat V c).before 2 t d)))

/-- and what it returns. -/
def tpPost (c : Dev nD) (t : Fin cfg0.N) : sProp 𝕄 :=
  iprop((tpDat V c).Φ t.succ ∗ (tpDat V c).owesAt () t.succ
    ∗ owns (c : Thread nD τ) (st0_0 t) fullShare ((tpDat V c).after 0 t)
    ∗ owns (c : Thread nD τ) (st0_1 t) fullShare ((tpDat V c).after 1 t)
    ∗ owns (c : Thread nD τ) (st0_2 t) fullShare ((tpDat V c).after 2 t))

/-- The body at any block: the inputs' memrefs hold their blocks, so the triple applies; the invariant and the
    core's dues pass through unread. -/
theorem tpBody (c : Dev nD) (t : Fin cfg0.N) :
    tpPre V c t ⊢ wp frame (wpE (defs₀ (F := F)) Variants.none c none) Set.univ (bodyAt0 t) (fun _ => tpPost V c t) := by
  unfold tpPre tpPost bodyAt0
  simp only [tpBefore0, tpBefore1]
  rw [show (tpDat V c).Φ t.succ = (tpDat V c).Φ t.castSucc from rfl,
    show (tpDat V c).owesAt () t.succ = (tpDat V c).owesAt () t.castSucc from rfl,
    tpAfter0, tpAfter1, tpAfter2]
  iintro ⟨HΦ, Ho, ⟨%d0, H0⟩, ⟨%d1, H1⟩, ⟨%d2, H2⟩⟩
  iapply (tpKernel c Set.univ _ _ _ _ _ _ _ (tpBlk V c 0 t) (tpBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every block. -/
theorem tpObligation (c : Dev nD) : BodyObligation (tpDat (F := F) V c) (defs₀ (F := F)) Variants.none () Set.univ := fun t => by
  rw [bigSep_W0, bigSep_W0]
  exact tpBody V c t

end Cert.KernelIdeal.Hand

end
-- ==== Proof.IdealLinRuns.lean ====
/-
# The linear-layer call (the second kernel call), at any contents of the core's buffers

The call walks the 65536 flattened input features in eight stretches of 8192. At a stretch it loads the stretch's
columns of the activations `[64, 8192]` and of the weights `[1024, 8192]`, multiplies them (contracting the 8192
columns) and adds the product to a running total `[64, 1024]` kept in a scratch buffer: the total is set to zero at
the first stretch, and at the last stretch the total plus the bias row is stored into the output block, which is the
whole output array and is written back only then. So there are three kinds of stretch — the first, a middle one, the
last — and what the scratch holds after stretch `n` is a recursion on `n`; the region's invariant carries the scratch
at that value from one stretch to the next.
Everything is stated at a parameter `V`: the contents of the core's buffers when the call is entered.
-/
import proofs.«117554_j70016556860030_1_alg».proof.Proof.Gen.KernelIdeal.Launch
import proofs.«117554_j70016556860030_1_alg».proof.Proof.Gen.KernelIdeal.Skeleton
import proofs.«117554_j70016556860030_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at stretch `t`, read off the window's array as the call finds it. -/
def linBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every stretch, fetched there or not (the bias
    is fetched once: its block index never moves), for any proof data whose array is `V`'s and whose body leaves the
    block in place. -/
theorem linBefore0_of {c : Dev nD} (dat : Dat τ (Elt F) Unit ℕ (UR sig nD τ) ℕ cfg1 c) (hA : dat.A 0 = V c (Pipeline.arrRef spec1 0))
    (hafter : ∀ t, dat.after 0 t = linBlk V c 0 t) (t : Fin cfg1.N) (d) : dat.before 0 t d = linBlk V c 0 t :=
  (dat.before_in_eq_fetched 0 rfl (fun _ => rfl) (fun _ _ _ => rfl) (fun t => by rw [hafter]; unfold Dat.blockOf linBlk; rw [hA]; try rfl) t d).trans
    (by unfold Dat.fetched Dat.blockOf linBlk; rw [hA]; try rfl)
theorem linBefore1_of {c : Dev nD} (dat : Dat τ (Elt F) Unit ℕ (UR sig nD τ) ℕ cfg1 c) (hA : dat.A 1 = V c (Pipeline.arrRef spec1 1))
    (hafter : ∀ t, dat.after 1 t = linBlk V c 1 t) (t : Fin cfg1.N) (d) : dat.before 1 t d = linBlk V c 1 t :=
  (dat.before_in_eq_fetched 1 rfl (fun _ => rfl) (fun _ _ _ => rfl) (fun t => by rw [hafter]; unfold Dat.blockOf linBlk; rw [hA]; try rfl) t d).trans
    (by unfold Dat.fetched Dat.blockOf linBlk; rw [hA]; try rfl)
theorem linBefore2_of {c : Dev nD} (dat : Dat τ (Elt F) Unit ℕ (UR sig nD τ) ℕ cfg1 c) (hA : dat.A 2 = V c (Pipeline.arrRef spec1 2))
    (hafter : ∀ t, dat.after 2 t = linBlk V c 2 t) (t : Fin cfg1.N) (d) : dat.before 2 t d = linBlk V c 2 t :=
  (dat.before_in_eq_fetched 2 rfl (fun _ => rfl) (fun _ _ _ => rfl) (fun t => by rw [hafter]; unfold Dat.blockOf linBlk; rw [hA]; try rfl) t d).trans
    (by unfold Dat.fetched Dat.blockOf linBlk; rw [hA]; try rfl)

/-! ## The body's two branch conditions, decided over the eight stretches -/

/-- The body's first test: "this is stretch 0". -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)
/-- The body's second test: "this is stretch 7". -/
abbrev isLast (i : grid1.Coords) : Prop := k1_cond2 i = 1#1
theorem isLast_iff : ∀ t : Fin cfg1.N, isLast (grid1.coords t) ↔ t.val = 7 :=
  (by decide +kernel : ∀ t : Fin grid1.N, isLast (grid1.coords t) ↔ t.val = 7)

/-- The three inputs are never idle; the output is idle, and not written back, exactly off the last stretch. -/
theorem linLive0 : ∀ t : Fin cfg1.N, cfg1.idle 0 (grid1.coords t) = false := by decide +kernel
theorem linLive1 : ∀ t : Fin cfg1.N, cfg1.idle 1 (grid1.coords t) = false := by decide +kernel
theorem linLive2 : ∀ t : Fin cfg1.N, cfg1.idle 2 (grid1.coords t) = false := by decide +kernel
theorem linIdle3 : ∀ t : Fin cfg1.N, ¬isLast (grid1.coords t) → cfg1.idle 3 (grid1.coords t) = true := by decide +kernel
theorem linNoFlush3 : ∀ t : Fin cfg1.N, ¬isLast (grid1.coords t) → (cfg1.win 3).flush t = false := by decide +kernel
theorem linLive3 : ∀ t : Fin cfg1.N, isLast (grid1.coords t) → cfg1.idle 3 (grid1.coords t) = false := by decide +kernel

/-! ## The memrefs the body is called with -/

abbrev lm0 (t : Fin cfg1.N) : Memref sig .tc .vmem S64x8192 .bf16 := win1_0.stage (cfg1.slots t 0)
abbrev lh0 (t : Fin cfg1.N) : (lm0 t).IsWhole := hstage1_0 ((cfg1.slots t 0).cast nbuf1_0)
abbrev lm1 (t : Fin cfg1.N) : Memref sig .tc .vmem S1024x8192 .bf16 := win1_1.stage (cfg1.slots t 1)
abbrev lh1 (t : Fin cfg1.N) : (lm1 t).IsWhole := hstage1_1 ((cfg1.slots t 1).cast nbuf1_1)
abbrev lm2 (t : Fin cfg1.N) : Memref sig .tc .vmem S1024 .f32 := win1_2.stage (cfg1.slots t 2)
abbrev lh2 (t : Fin cfg1.N) : (lm2 t).IsWhole := hstage1_2 ((cfg1.slots t 2).cast nbuf1_2)
abbrev lm3 (t : Fin cfg1.N) : Memref sig .tc .vmem S64x1024 .f32 := win1_3.stage (cfg1.slots t 3)
abbrev lh3 (t : Fin cfg1.N) : (lm3 t).IsWhole := hstage1_3 ((cfg1.slots t 3).cast nbuf1_3)
/-- The running total's scratch buffer, whole; and the views through which contents are stated. -/
abbrev accM : Memref sig .tc .vmem S64x1024 .f32 := Memref.whole cc1_scratch0
abbrev accV : View sig .tc .vmem S64x1024 .f32 := accM.view
abbrev outV : View sig .tc .vmem S64x1024 .f32 := (Memref.whole cc1_stg3_0 : Memref sig .tc .vmem S64x1024 .f32).view

/-! ## The region's invariant, with the scratch held at a named value

Besides the scratch, the core's scoped buffers that this call's windows do not stage are the six staging buffers of
the first call; they ride along at anything. -/

/-- The invariant's shape: the six idle buffers at anything, then what is said of the scratch (`S`), and the generator register at some state. -/
def linHold (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

/-- What rides along untouched. -/
def linKeep (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ r, prngReg c r))

theorem linHold_open (c : Dev nD) (S : sProp 𝕄) : linHold c S ⊢ iprop(S ∗ linKeep (F := F) c) := by
  unfold linHold linKeep
  iintro ⟨⟨B0, B1, B2, B3, B4, B5, HS⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    iexact B5
  iexact Hg

theorem linHold_close (c : Dev nD) (S : sProp 𝕄) : iprop(S ∗ linKeep (F := F) c) ⊢ linHold c S := by
  unfold linHold linKeep
  iintro ⟨HS, ⟨B0, B1, B2, B3, B4, B5⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    iexact HS
  iexact Hg

/-- The plain invariant is this shape with the scratch at anything. -/
theorem linPhiA_eq (c : Dev nD) :
    (Pipeline.ΦA spec1 c : sProp 𝕄) = linHold c (iprop(∃ d, owns (c : Thread nD τ) accM fullShare d)) := by
  unfold Pipeline.ΦA linHold; rw [scopedRest1_eq]; simp only [accM, owns_whole]; try rfl

/-! ## The body on any staging memrefs, stretch kind by stretch kind

Each run's witness is the list of pieces the body's stores leave in a buffer, last store first, found by the run itself. -/

set_option maxHeartbeats 2000000 in
/-- FIRST stretch (and not the last): the scratch is zeroed and the stretch's product added; the output block is handed
    back as found. -/
noncomputable def linRunA (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : isFirst i) (hc1 : ¬isLast i)
    (x0 : Vec F S64x8192 .bf16) (x1 : Vec F S1024x8192 .bf16) (x2 : Vec F S1024 .f32) :
    { LS : List (View.Piece (Elt F) S64x1024 .f32) //
      ∀ (xi : Vec F S64x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__lin_kernel i arg1 harg1 arg2 harg2 arg3 harg3 arg4 harg4 arg5 harg5) K } := by
  refine ⟨?_, fun xi E K => ?run⟩
  case run =>
    simp only [cc1__lin_kernel_eq_skeleton]; unfold cc1__lin_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- A MIDDLE stretch: the stretch's product is added to the scratch as found (`xs`); the output block is handed back
    as found. -/
noncomputable def linRunB (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : ¬isLast i)
    (x0 : Vec F S64x8192 .bf16) (x1 : Vec F S1024x8192 .bf16) (x2 : Vec F S1024 .f32) (xs : Vec F S64x1024 .f32) :
    { LS : List (View.Piece (Elt F) S64x1024 .f32) //
      ∀ (xi : Vec F S64x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__lin_kernel i arg1 harg1 arg2 harg2 arg3 harg3 arg4 harg4 arg5 harg5) K } := by
  refine ⟨?_, fun xi E K => ?run⟩
  case run =>
    simp only [cc1__lin_kernel_eq_skeleton]; unfold cc1__lin_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- The LAST stretch (and not the first): the stretch's product is added to the scratch as found (`xs`), and the total
    plus the bias row is stored into the output block. -/
noncomputable def linRunC (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__lin_kernel i arg1 harg1 arg2 harg2 arg3 harg3 arg4 harg4 arg5 harg5) K } := by
  refine ⟨?_, ?_, fun E K => ?run⟩
  case run =>
    simp only [cc1__lin_kernel_eq_skeleton]; unfold cc1__lin_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Hand

end
-- ==== Proof.IdealLin.lean ====
/-
# The linear-layer call: the running total stretch by stretch, the invariant, the proof data, the body obligation

What the scratch holds after stretch `n` is defined by recursion on `n` from the three kinds of stretch; the region's
invariant before stretch `n + 1` holds the scratch at that value; the output block's contents matter only after the
last stretch, where the body stores the total plus the bias into it and the block is written back.
-/
import proofs.«117554_j70016556860030_1_alg».proof.Proof.Gen.KernelIdeal.Launch
import proofs.«117554_j70016556860030_1_alg».proof.Proof.Gen.KernelIdeal.Skeleton
import proofs.«117554_j70016556860030_1_alg».proof.Proof.Gen.KernelIdeal.Points
import proofs.«117554_j70016556860030_1_alg».proof.Proof.IdealLinRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of stretch leaves -/

/-- A stand-in for the output block at the stretches that store nothing into it (nothing reads it there). -/
def linNoOut : Vec F S64x1024 .f32 := outV.read (Elt F) outV.junk

theorem linCoverA (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : isFirst i) (hc1 : ¬isLast i)
    (x0 : Vec F S64x8192 .bf16) (x1 : Vec F S1024x8192 .bf16) (x2 : Vec F S1024 .f32) (y : S64x1024.Idx) :
    ∃ pc ∈ (linRunA c i arg1 harg1 arg2 harg2 arg3 harg3 arg4 harg4 arg5 harg5 hc0 hc1 x0 x1 x2).1, y ∈ pc.1.set :=
  View.cover_of_tiledL (linRunA c i arg1 harg1 arg2 harg2 arg3 harg3 arg4 harg4 arg5 harg5 hc0 hc1 x0 x1 x2).1 S64x1024.size (by sl_kernel_rfl) y
/-- The scratch after the first stretch: its pieces read back. -/
def linAccA (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : isFirst i) (hc1 : ¬isLast i)
    (x0 : Vec F S64x8192 .bf16) (x1 : Vec F S1024x8192 .bf16) (x2 : Vec F S1024 .f32) : Vec F S64x1024 .f32 :=
  accV.read (Elt F) (accV.writes (Elt F) accV.junk (linRunA c i arg1 harg1 arg2 harg2 arg3 harg3 arg4 harg4 arg5 harg5 hc0 hc1 x0 x1 x2).1)

theorem linCoverB (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : ¬isLast i)
    (x0 : Vec F S64x8192 .bf16) (x1 : Vec F S1024x8192 .bf16) (x2 : Vec F S1024 .f32) (xs : Vec F S64x1024 .f32) (y : S64x1024.Idx) :
    ∃ pc ∈ (linRunB c i arg1 harg1 arg2 harg2 arg3 harg3 arg4 harg4 arg5 harg5 hc0 hc1 x0 x1 x2 xs).1, y ∈ pc.1.set :=
  View.cover_of_tiledL (linRunB c i arg1 harg1 arg2 harg2 arg3 harg3 arg4 harg4 arg5 harg5 hc0 hc1 x0 x1 x2 xs).1 S64x1024.size (by sl_kernel_rfl) y
/-- The scratch after a middle stretch, over what the stretch before left (`xs`). -/
def linAccB (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : ¬isLast i)
    (x0 : Vec F S64x8192 .bf16) (x1 : Vec F S1024x8192 .bf16) (x2 : Vec F S1024 .f32) (xs : Vec F S64x1024 .f32) : Vec F S64x1024 .f32 :=
  accV.read (Elt F) (accV.writes (Elt F) accV.junk (linRunB c i arg1 harg1 arg2 harg2 arg3 harg3 arg4 harg4 arg5 harg5 hc0 hc1 x0 x1 x2 xs).1)

theorem linCoverC (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) (y : S64x1024.Idx) :
    ∃ pc ∈ (linRunC c i arg1 harg1 arg2 harg2 arg3 harg3 arg4 harg4 arg5 harg5 hc0 hc1 x0 x1 x2 xs).2.1, y ∈ pc.1.set :=
  View.cover_of_tiledL (linRunC c i arg1 harg1 arg2 harg2 arg3 harg3 arg4 harg4 arg5 harg5 hc0 hc1 x0 x1 x2 xs).2.1 S64x1024.size (by sl_kernel_rfl) y
theorem linCoverOut (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) (y : S64x1024.Idx) :
    ∃ pc ∈ (linRunC c i arg1 harg1 arg2 harg2 arg3 harg3 arg4 harg4 arg5 harg5 hc0 hc1 x0 x1 x2 xs).1, y ∈ pc.1.set :=
  View.cover_of_tiledL (linRunC c i arg1 harg1 arg2 harg2 arg3 harg3 arg4 harg4 arg5 harg5 hc0 hc1 x0 x1 x2 xs).1 S64x1024.size (by sl_kernel_rfl) y
/-- The scratch, and the output block, after the last stretch, over what the stretch before left (`xs`). -/
def linAccC (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) : Vec F S64x1024 .f32 :=
  accV.read (Elt F) (accV.writes (Elt F) accV.junk (linRunC c i arg1 harg1 arg2 harg2 arg3 harg3 arg4 harg4 arg5 harg5 hc0 hc1 x0 x1 x2 xs).2.1)
def linOutC (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) : Vec F S64x1024 .f32 :=
  outV.read (Elt F) (outV.writes (Elt F) outV.junk (linRunC c i arg1 harg1 arg2 harg2 arg3 harg3 arg4 harg4 arg5 harg5 hc0 hc1 x0 x1 x2 xs).1)

/-! ## The accumulation -/

/-- After stretch `n`: the output block (a stand-in except after the last stretch) and the scratch. -/
def linOuts (c : Dev nD) : (n : ℕ) → n < cfg1.N → Vec F S64x1024 .f32 × Vec F S64x1024 .f32
  | 0, hn => (linNoOut, linAccA c (grid1.coords ⟨0, hn⟩) (lm0 ⟨0, hn⟩) (lh0 ⟨0, hn⟩) (lm1 ⟨0, hn⟩) (lh1 ⟨0, hn⟩) (lm2 ⟨0, hn⟩) (lh2 ⟨0, hn⟩) (lm3 ⟨0, hn⟩) (lh3 ⟨0, hn⟩) accM (Memref.isWhole_whole _) ((isFirst_iff ⟨0, hn⟩).mpr rfl) (fun h => by have h' := (isLast_iff ⟨0, hn⟩).mp h; (try dsimp only at h'); omega) (linBlk V c 0 ⟨0, hn⟩) (linBlk V c 1 ⟨0, hn⟩) (linBlk V c 2 ⟨0, hn⟩))
  | n + 1, hn =>
    if h1 : n + 1 = 7 then
      (linOutC c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) accM (Memref.isWhole_whole _) (fun h => absurd ((isFirst_iff _).mp h) (Nat.succ_ne_zero n)) ((isLast_iff ⟨n + 1, hn⟩).mpr h1) (linBlk V c 0 ⟨n + 1, hn⟩) (linBlk V c 1 ⟨n + 1, hn⟩) (linBlk V c 2 ⟨n + 1, hn⟩) (linOuts c n (Nat.lt_of_succ_lt hn)).2,
       linAccC c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) accM (Memref.isWhole_whole _) (fun h => absurd ((isFirst_iff _).mp h) (Nat.succ_ne_zero n)) ((isLast_iff ⟨n + 1, hn⟩).mpr h1) (linBlk V c 0 ⟨n + 1, hn⟩) (linBlk V c 1 ⟨n + 1, hn⟩) (linBlk V c 2 ⟨n + 1, hn⟩) (linOuts c n (Nat.lt_of_succ_lt hn)).2)
    else
      (linNoOut, linAccB c (grid1.coords ⟨n + 1, hn⟩) (lm0 ⟨n + 1, hn⟩) (lh0 ⟨n + 1, hn⟩) (lm1 ⟨n + 1, hn⟩) (lh1 ⟨n + 1, hn⟩) (lm2 ⟨n + 1, hn⟩) (lh2 ⟨n + 1, hn⟩) (lm3 ⟨n + 1, hn⟩) (lh3 ⟨n + 1, hn⟩) accM (Memref.isWhole_whole _) (fun h => absurd ((isFirst_iff _).mp h) (Nat.succ_ne_zero n)) (fun h => h1 ((isLast_iff ⟨n + 1, hn⟩).mp h)) (linBlk V c 0 ⟨n + 1, hn⟩) (linBlk V c 1 ⟨n + 1, hn⟩) (linBlk V c 2 ⟨n + 1, hn⟩) (linOuts c n (Nat.lt_of_succ_lt hn)).2)

theorem linOuts_first (c : Dev nD) (t : Fin cfg1.N) (h0 : t.val = 0) (hl : ¬isLast (grid1.coords t)) :
    linOuts V c t.val t.isLt = (linNoOut, linAccA c (grid1.coords t) (lm0 t) (lh0 t) (lm1 t) (lh1 t) (lm2 t) (lh2 t) (lm3 t) (lh3 t) accM (Memref.isWhole_whole _) ((isFirst_iff t).mpr h0) hl (linBlk V c 0 t) (linBlk V c 1 t) (linBlk V c 2 t)) := by
  obtain ⟨n, hn⟩ := t
  cases n with
  | zero => exact rfl
  | succ n => exact absurd h0 (Nat.succ_ne_zero n)

theorem linOuts_mid (c : Dev nD) (t : Fin cfg1.N) (h0 : t.val ≠ 0) (h1 : t.val ≠ 7) :
    linOuts V c t.val t.isLt = (linNoOut, linAccB c (grid1.coords t) (lm0 t) (lh0 t) (lm1 t) (lh1 t) (lm2 t) (lh2 t) (lm3 t) (lh3 t) accM (Memref.isWhole_whole _) (fun h => h0 ((isFirst_iff t).mp h)) (fun h => h1 ((isLast_iff t).mp h)) (linBlk V c 0 t) (linBlk V c 1 t) (linBlk V c 2 t)
      (linOuts V c (t.val - 1) (Nat.lt_of_le_of_lt (Nat.sub_le _ _) t.isLt)).2) := by
  obtain ⟨n, hn⟩ := t
  cases n with
  | zero => exact absurd rfl h0
  | succ n => exact (dif_neg h1).trans rfl

theorem linOuts_last (c : Dev nD) (t : Fin cfg1.N) (h0 : t.val ≠ 0) (h1 : t.val = 7) :
    linOuts V c t.val t.isLt = (linOutC c (grid1.coords t) (lm0 t) (lh0 t) (lm1 t) (lh1 t) (lm2 t) (lh2 t) (lm3 t) (lh3 t) accM (Memref.isWhole_whole _) (fun h => h0 ((isFirst_iff t).mp h)) ((isLast_iff t).mpr h1) (linBlk V c 0 t) (linBlk V c 1 t) (linBlk V c 2 t)
        (linOuts V c (t.val - 1) (Nat.lt_of_le_of_lt (Nat.sub_le _ _) t.isLt)).2,
      linAccC c (grid1.coords t) (lm0 t) (lh0 t) (lm1 t) (lh1 t) (lm2 t) (lh2 t) (lm3 t) (lh3 t) accM (Memref.isWhole_whole _) (fun h => h0 ((isFirst_iff t).mp h)) ((isLast_iff t).mpr h1) (linBlk V c 0 t) (linBlk V c 1 t) (linBlk V c 2 t)
        (linOuts V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before stretch `n`: the plain invariant before the first; afterwards the scratch at what stretch `n - 1` left. -/
def linPhi (c : Dev nD) : (n : ℕ) → n ≤ cfg1.N → sProp 𝕄
  | 0, _ => Pipeline.ΦA spec1 c
  | n + 1, hn => linHold c (owns (c : Thread nD τ) accM fullShare (linOuts V c n hn).2)

theorem linPhi_zero (c : Dev nD) (n : ℕ) (h : n ≤ cfg1.N) (hz : n = 0) : linPhi V c n h = Pipeline.ΦA spec1 c := by
  subst hz; rfl
theorem linPhi_succ (c : Dev nD) (n : ℕ) (hn : n < cfg1.N) :
    linPhi V c (n + 1) hn = linHold c (owns (c : Thread nD τ) accM fullShare (linOuts V c n hn).2) := rfl
theorem linPhi_pos (c : Dev nD) (n : ℕ) (h : n ≤ cfg1.N) (hz : n ≠ 0) :
    linPhi V c n h = linHold c (owns (c : Thread nD τ) accM fullShare (linOuts V c (n - 1) (by omega)).2) := by
  cases n with
  | zero => exact absurd rfl hz
  | succ n => rfl

/-! ## The proof data -/

/-- The call's proof data on core `c`: the arrays as the call finds them; after the body each input's buffer at its
    block and the output's at `linOuts`' first component; the invariant `linPhi`; nothing owed; full shares. -/
def linDat (c : Dev nD) : Dat τ (Elt F) Unit ℕ (UR sig nD τ) ℕ cfg1 c where
  A w := V c (Pipeline.arrRef spec1 w)
  after w t := match w with
    | ⟨0, _⟩ => linBlk V c 0 t
    | ⟨1, _⟩ => linBlk V c 1 t
    | ⟨2, _⟩ => linBlk V c 2 t
    | ⟨3, _⟩ => (linOuts V c t.val t.isLt).1
  Φ t := linPhi V c t.val (Nat.le_of_lt_succ t.isLt)
  q _ := fullShare
  owed _ := 0

theorem linA_eq (c : Dev nD) (w : Fin cfg1.W) : (linDat V c).A w = V c (Pipeline.arrRef spec1 w) := by
  dsimp only [linDat]
theorem linPhi_castSucc (c : Dev nD) (t : Fin cfg1.N) :
    (linDat V c).Φ t.castSucc = linPhi V c t.val (Nat.le_of_lt t.isLt) := by
  dsimp only [linDat]; simp only [Fin.coe_castSucc]
theorem linAfter0 (c : Dev nD) (t : Fin cfg1.N) : (linDat V c).after 0 t = linBlk V c 0 t := by dsimp only [linDat]
theorem linAfter1 (c : Dev nD) (t : Fin cfg1.N) : (linDat V c).after 1 t = linBlk V c 1 t := by dsimp only [linDat]
theorem linAfter2 (c : Dev nD) (t : Fin cfg1.N) : (linDat V c).after 2 t = linBlk V c 2 t := by dsimp only [linDat]
theorem linAfter3 (c : Dev nD) (t : Fin cfg1.N) : (linDat V c).after 3 t = (linOuts V c t.val t.isLt).1 := by dsimp only [linDat]
theorem linBefore0 (c : Dev nD) (t : Fin cfg1.N) (d) : (linDat V c).before 0 t d = linBlk V c 0 t :=
  linBefore0_of V (linDat V c) (linA_eq V c 0) (linAfter0 V c) t d
theorem linBefore1 (c : Dev nD) (t : Fin cfg1.N) (d) : (linDat V c).before 1 t d = linBlk V c 1 t :=
  linBefore1_of V (linDat V c) (linA_eq V c 1) (linAfter1 V c) t d
theorem linBefore2 (c : Dev nD) (t : Fin cfg1.N) (d) : (linDat V c).before 2 t d = linBlk V c 2 t :=
  linBefore2_of V (linDat V c) (linA_eq V c 2) (linAfter2 V c) t d

/-! ## The body obligation -/

def linPre (c : Dev nD) (t : Fin cfg1.N) : sProp 𝕄 :=
  iprop((linDat V c).Φ t.castSucc ∗ (linDat V c).owesAt () t.castSucc
    ∗ (∃ d, owns (c : Thread nD τ) (lm0 t) fullShare ((linDat V c).before 0 t d))
    ∗ (∃ d, owns (c : Thread nD τ) (lm1 t) fullShare ((linDat V c).before 1 t d))
    ∗ (∃ d, owns (c : Thread nD τ) (lm2 t) fullShare ((linDat V c).before 2 t d))
    ∗ (∃ d, owns (c : Thread nD τ) (lm3 t) fullShare ((linDat V c).before 3 t d)))

def linPost (c : Dev nD) (t : Fin cfg1.N) : sProp 𝕄 :=
  iprop((linDat V c).Φ t.succ ∗ (linDat V c).owesAt () t.succ
    ∗ (linDat V c).leavesExact 0 t
    ∗ (linDat V c).leavesExact 1 t
    ∗ (linDat V c).leavesExact 2 t
    ∗ (linDat V c).leavesExact 3 t)

set_option maxHeartbeats 4800000 in
/-- The body at any stretch: the inputs' memrefs hold their blocks; which kind of stretch it is is decided from the
    stretch's number; the invariant hands the body the scratch (at anything before the first stretch, else at what the
    stretch before left) and takes it back at this stretch's value; the six idle buffers, the generator register and
    the core's dues pass through. -/
theorem linBody (c : Dev nD) (t : Fin cfg1.N) :
    linPre V c t ⊢ wp frame (wpE (defs₀ (F := F)) Variants.none c none) Set.univ (bodyAt1 t) (fun _ => linPost V c t) := by
  unfold linPre linPost bodyAt1
  simp only [linBefore0, linBefore1, linBefore2]
  rw [show (linDat V c).owesAt () t.succ = (linDat V c).owesAt () t.castSucc from rfl]
  rw [show (linDat V c).Φ t.succ = linPhi V c (t.val + 1) t.isLt from rfl, linPhi_succ]
  rw [show (linDat V c).leavesExact 0 t = owns (c : Thread nD τ) (lm0 t) fullShare ((linDat V c).after 0 t) from by
    unfold Dat.leavesExact; rw [linLive0 t], linAfter0]
  rw [show (linDat V c).leavesExact 1 t = owns (c : Thread nD τ) (lm1 t) fullShare ((linDat V c).after 1 t) from by
    unfold Dat.leavesExact; rw [linLive1 t], linAfter1]
  rw [show (linDat V c).leavesExact 2 t = owns (c : Thread nD τ) (lm2 t) fullShare ((linDat V c).after 2 t) from by
    unfold Dat.leavesExact; rw [linLive2 t], linAfter2]
  have hN : t.val < 8 := lt_of_lt_of_eq t.isLt (show cfg1.N = 8 from N_1)
  by_cases h0 : t.val = 0
  · have hl : ¬isLast (grid1.coords t) := fun h => by have h' := (isLast_iff t).mp h; omega
    rw [Dat.leavesExact_idle (linDat V c) 3 t (linIdle3 t hl) (linNoFlush3 t hl)]
    rw [linOuts_first V c t h0 hl]
    unfold linAccA; (try dsimp only)
    rw [linPhi_castSucc V c t, linPhi_zero V c _ _ h0, linPhiA_eq]
    iintro ⟨HΦ, Ho, ⟨%d0, H0⟩, ⟨%d1, H1⟩, ⟨%d2, H2⟩, ⟨%d3, H3⟩⟩
    ihave HΦ' := (linHold_open c _) $$ HΦ
    icases HΦ' with ⟨HS, Hkeep⟩
    iapply ((linRunA c (grid1.coords t) _ _ _ _ _ _ _ _ _ _ ((isFirst_iff t).mpr h0) hl (linBlk V c 0 t) (linBlk V c 1 t) (linBlk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hkeep]
    · iapply (linHold_close c _)
      isplitl [HS]
      · unfold owns; iexists _; isplitr
        swap; · iexact HS
        ipureintro; exact View.read_writes_of_cover _ _ _ _ _ (linCoverA c _ _ _ _ _ _ _ _ _ _ _ _ _ _ _ _)
      iexact Hkeep
    isplitl [Ho]; · iexact Ho
    isplitl [H0]; · iexact H0
    isplitl [H1]; · iexact H1
    isplitl [H2]; · iexact H2
    iexists _; iexact H3
  · by_cases h7 : t.val = 7
    · have hl : isLast (grid1.coords t) := (isLast_iff t).mpr h7
      rw [show (linDat V c).leavesExact 3 t = owns (c : Thread nD τ) (lm3 t) fullShare ((linDat V c).after 3 t) from by
        unfold Dat.leavesExact; rw [linLive3 t hl], linAfter3]
      rw [linOuts_last V c t h0 h7]
      unfold linOutC linAccC; (try dsimp only)
      rw [linPhi_castSucc V c t, linPhi_pos V c _ _ h0]
      iintro ⟨HΦ, Ho, ⟨%d0, H0⟩, ⟨%d1, H1⟩, ⟨%d2, H2⟩, ⟨%d3, H3⟩⟩
      ihave HΦ' := (linHold_open c _) $$ HΦ
      icases HΦ' with ⟨HS, Hkeep⟩
      iapply ((linRunC c (grid1.coords t) _ _ _ _ _ _ _ _ _ _ (fun h => h0 ((isFirst_iff t).mp h)) hl (linBlk V c 0 t) (linBlk V c 1 t) (linBlk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hkeep]
      · iapply (linHold_close c _)
        isplitl [HS]
        · unfold owns; iexists _; isplitr
          swap; · iexact HS
          ipureintro; exact View.read_writes_of_cover _ _ _ _ _ (linCoverC c _ _ _ _ _ _ _ _ _ _ _ _ _ _ _ _ _)
        iexact Hkeep
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (linCoverOut c _ _ _ _ _ _ _ _ _ _ _ _ _ _ _ _ _)
    · have hl : ¬isLast (grid1.coords t) := fun h => h7 ((isLast_iff t).mp h)
      rw [Dat.leavesExact_idle (linDat V c) 3 t (linIdle3 t hl) (linNoFlush3 t hl)]
      rw [linOuts_mid V c t h0 h7]
      unfold linAccB; (try dsimp only)
      rw [linPhi_castSucc V c t, linPhi_pos V c _ _ h0]
      iintro ⟨HΦ, Ho, ⟨%d0, H0⟩, ⟨%d1, H1⟩, ⟨%d2, H2⟩, ⟨%d3, H3⟩⟩
      ihave HΦ' := (linHold_open c _) $$ HΦ
      icases HΦ' with ⟨HS, Hkeep⟩
      iapply ((linRunB c (grid1.coords t) _ _ _ _ _ _ _ _ _ _ (fun h => h0 ((isFirst_iff t).mp h)) hl (linBlk V c 0 t) (linBlk V c 1 t) (linBlk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hkeep]
      · iapply (linHold_close c _)
        isplitl [HS]
        · unfold owns; iexists _; isplitr
          swap; · iexact HS
          ipureintro; exact View.read_writes_of_cover _ _ _ _ _ (linCoverB c _ _ _ _ _ _ _ _ _ _ _ _ _ _ _ _ _)
        iexact Hkeep
      isplitl [Ho]; · iexact Ho
      isplitl [H0]; · iexact H0
      isplitl [H1]; · iexact H1
      isplitl [H2]; · iexact H2
      iexists _; iexact H3

/-- The library's body obligation, at every stretch. -/
theorem linObligation (c : Dev nD) : BodyObligation (linDat (F := F) V c) (defs₀ (F := F)) Variants.none () Set.univ := fun t => by
  rw [bigSep_W1, bigSep_W1]
  exact linBody V c t

/-- What the region hands the call (the plain invariant) is the invariant before the first stretch, -/
theorem linIn (c : Dev nD) : Pipeline.ΦA spec1 c ⊢ (linDat V c).Φ 0 := by
  rw [show (linDat V c).Φ 0 = linPhi V c 0 (Nat.zero_le _) from rfl, linPhi_zero V c 0 _ rfl]
  try exact Idealize.SL.BI.Entails.refl _

/-- and after the last stretch the invariant gives the plain one back: the scratch's value is forgotten. -/
theorem linOut (c : Dev nD) : (linDat V c).Φ (Fin.last cfg1.N) ⊢ Pipeline.ΦA spec1 c := by
  have ht : (Fin.last cfg1.N).val ≠ 0 := by rw [Fin.val_last]; have : cfg1.N = 8 := N_1; omega
  rw [show (linDat V c).Φ (Fin.last cfg1.N) = linPhi V c (Fin.last cfg1.N).val (Nat.le_of_lt_succ (Fin.last cfg1.N).isLt) from rfl,
    linPhi_pos V c _ _ ht, linPhiA_eq]
  iintro H
  ihave H' := (linHold_open c _) $$ H
  icases H' with ⟨HS, Hkeep⟩
  iapply (linHold_close c _)
  isplitl [HS]
  · iexists _; iexact HS
  iexact Hkeep

end Cert.KernelIdeal.Hand

end
-- ==== Proof.IdealRun.lean ====
/-
# The whole program: host operations, the tensor-product call, host operations, the linear-layer call

The contents of the core's unscoped buffers are followed through @main's four items: the launch memory; after the
twenty host operations that gather and convert the rows; after the first call, whose output array holds what its
write-backs leave; after the reshape and the weights' conversion; after the second call, likewise. Each call is
entered from "every unscoped buffer at the contents before it" and left at the contents after it, its own arrays
split out for the pipeline and put back. The conclusion reads every unscoped buffer of the final memory at the last
contents; the argument arrays walk back through the four items to the launch memory, no item writing one.
-/
import proofs.«117554_j70016556860030_1_alg».proof.Proof.Gen.KernelIdeal.Launch
import proofs.«117554_j70016556860030_1_alg».proof.Proof.Gen.KernelIdeal.Skeleton
import proofs.«117554_j70016556860030_1_alg».proof.Proof.Gen.KernelIdeal.Points
import proofs.«117554_j70016556860030_1_alg».proof.Proof.Gen.KernelIdeal.Regions
import proofs.«117554_j70016556860030_1_alg».proof.Proof.IdealTp
import proofs.«117554_j70016556860030_1_alg».proof.Proof.IdealLin
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first stretch of host operations (the first call's entry). -/
abbrev B1 : Dev nD → Valuation τ sig (Elt F) := fun c => StableHlo.after hostOps0 (B0 m ρ c)
/-- The same read at the core's references. -/
abbrev E1 : (c : Dev nD) → (b : Ref sig .tc) → Buf (Elt F) ((c : Thread nD τ).loc b) := fun c b => B1 m ρ c b
/-- At the first call's exit: its arrays at what the pipeline leaves, every other buffer as entered. -/
def B2 (c : Dev nD) : Valuation τ sig (Elt F) :=
  Pipeline.withArrays spec0 c (B1 m ρ c) fun w => (tpDat (E1 m ρ) c).arrAt w cfg0.N
theorem B2_arr (c : Dev nD) (w : Fin cfg0.W) :
    B2 m ρ c (Proc.devRef .tc (Pipeline.arrRef spec0 w)) = (tpDat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem tpExit (c : Dev nD) (w : Fin cfg0.W) : (tpDat (E1 m ρ) c).arrAt w cfg0.N = E2 m ρ c (Pipeline.arrRef spec0 w) :=
  (B2_arr m ρ c w).symm
theorem tpRest (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations (the second call's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second call's exit. -/
def B4 (c : Dev nD) : Valuation τ sig (Elt F) :=
  Pipeline.withArrays spec1 c (B3 m ρ c) fun w => (linDat (E3 m ρ) c).arrAt w cfg1.N
theorem B4_arr (c : Dev nD) (w : Fin cfg1.W) :
    B4 m ρ c (Proc.devRef .tc (Pipeline.arrRef spec1 w)) = (linDat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem linExit (c : Dev nD) (w : Fin cfg1.W) : (linDat (E3 m ρ) c).arrAt w cfg1.N = E4 m ρ c (Pipeline.arrRef spec1 w) :=
  (B4_arr m ρ c w).symm
theorem linRest (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## The argument arrays end as launched

No host operation writes an argument; the first call stages none; the second call stages the bias as an input, which
the pipeline leaves as entered. -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl
theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := (B4_arr m ρ c 2).trans (((linDat (E3 m ρ) c).arrAt_in 2 rfl _).trans (linA_eq (E3 m ρ) c 2))
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

/-- The result array ends at what the second call's write-back leaves. -/
theorem B4_main_v19 (c : Dev nD) : B4 m ρ c (Proc.devRef .tc main_v19) = (linDat (E3 m ρ) c).arrAt 3 cfg1.N :=
  B4_arr m ρ c 3

/-! ## The proof data family and what rides along -/

/-- No call has a prefetched table. -/
abbrev tabs : (p : Fin 2) → (pcfgs (F := F) p).Adm := fun p => (cfgs p).toPCfg_adm
/-- Each call's proof data, at its entry contents. -/
def datOf : (p : Fin 2) → (c : Dev nD) → Dat τ (Elt F) Unit ℕ (UR sig nD τ) ℕ (Pipeline.pin (pcfgs (F := F)) tabs p) c
  | ⟨0, _⟩ => fun c => tpDat (E1 m ρ) c
  | ⟨1, _⟩ => fun c => linDat (E3 m ρ) c
abbrev noVar : Variants := Variants.none
/-- No core owes another anything. -/
abbrev noL : GSem nD τ sig → Finset Unit := fun _ => ∅
abbrev noLv : GSem nD τ sig → Unit → ℕ := fun _ _ => 0
/-- Beside the buffers, through every item: the generator register at some state, and the core owing nothing. -/
abbrev Ride (c : Dev nD) : sProp 𝕄 := iprop((∃ r, prngReg c r) ∗ ∃ W, owes (c : Thread nD τ) (0 : CellTallies nD τ sig Unit) W)
/-- A stretch of host operations as an item, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues. -/
abbrev Last (c : Dev nD) : sProp 𝕄 := iprop(StableHlo.held (c : Thread nD τ) (Pipeline.ucRefs τ sig) (B4 m ρ c) ∗ ∃ r, prngReg c r)

/-! ## The two calls as items -/

set_option backward.isDefEq.respectTransparency.types false in
/-- The first call: entered from every unscoped buffer at `B1`, left at `B2`. -/
def tpItem : Pipeline.RegionSeg (pcfgs (F := F)) tabs (datOf m ρ) () defs₀ noVar noL noLv 0 where
  win := launch0.win.to₀
  block_pos := launch0.block_pos
  stage_whole := launch0.stage_whole
  K := PEmpty
  osem k := k.elim
  ho := Pipeline.OwnSemFacts.none _
  hbody c := (tpObligation (E1 m ρ) c).loose
  hwaits := Pipeline.hwaits_of_owed_zero _ _ _ _ noL noLv 0 fun _ _ => rfl
  pre c := iprop(StableHlo.held (c : Thread nD τ) (Pipeline.ucRefs τ sig) (B1 m ρ c) ∗ Ride c)
  post c := iprop(StableHlo.held (c : Thread nD τ) (Pipeline.ucRefs τ sig) (B2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) tabs (datOf m ρ) launch0.win launch0.arr_whole c
      ((datOf m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datOf m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (datOf m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (datOf m ρ) ((datOf m ρ 0 c).share_full fun _ => rfl)
      (E1 m ρ c) (E2 m ρ c) ((datOf m ρ 0 c).arrAt · cfg0.N) (tpExit m ρ c) (tpRest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `B3`, left at `B4`; its invariant is entered from the
    plain one and gives the plain one back (the scratch's value named in between). -/
def linItem : Pipeline.RegionSeg (pcfgs (F := F)) tabs (datOf m ρ) () defs₀ noVar noL noLv 1 where
  win := launch1.win.to₀
  block_pos := launch1.block_pos
  stage_whole := launch1.stage_whole
  K := PEmpty
  osem k := k.elim
  ho := Pipeline.OwnSemFacts.none _
  hbody c := (linObligation (E3 m ρ) c).loose
  hwaits := Pipeline.hwaits_of_owed_zero _ _ _ _ noL noLv 1 fun _ _ => rfl
  pre c := iprop(StableHlo.held (c : Thread nD τ) (Pipeline.ucRefs τ sig) (B3 m ρ c) ∗ Ride c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) tabs (datOf m ρ) launch1.win launch1.arr_whole c
      ((datOf m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datOf m ρ 1 c).Φ 0 = Pipeline.ΦA spec1 c from
      (show (linDat (E3 m ρ) c).Φ 0 = linPhi (E3 m ρ) c 0 (Nat.zero_le _) from rfl).trans (linPhi_zero (E3 m ρ) c 0 _ rfl)]
    unfold Pipeline.ΦA
    iintro ⟨Hp, -, Hr⟩
    isplitl [Hr]; · iexact Hr
    iexact Hp
  hout c := by
    rw [Pipeline.ownSems0_none]
    have hback : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (linOut (E3 m ρ) c).trans hback
  hexit c := by
    have hjoin := Pipeline.unscopedBufs_of_arrays (p := 1) (pcfgs (F := F)) tabs (Ix := Unit) (Name := ℕ) (U := UR sig nD τ) (Lvl := ℕ)
      launch1.win launch1.arr_whole c (datOf m ρ) ((datOf m ρ 1 c).share_full fun _ => rfl)
      (E3 m ρ c) (E4 m ρ c) ((datOf m ρ 1 c).arrAt · cfg1.N) (linExit m ρ c) (linRest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

abbrev items : List (Pipeline.Seg (pcfgs (F := F)) tabs (datOf m ρ) () defs₀ noVar noL noLv) :=
  [ .host (hostItem hostOps0 hostOps0_sub hostOps0_fresh (B0 m ρ)),
    .region (tpItem m ρ),
    .host (hostItem hostOps1 hostOps1_sub hostOps1_fresh (B2 m ρ)),
    .region (linItem m ρ) ]
/-- @main is the run of the four items. -/
theorem main_items (c : Dev nD) : main (F := F) c = Pipeline.Seg.run (items m ρ) := (main_chain c).trans (by chain_rfl)

set_option backward.isDefEq.respectTransparency.types false in
/-- THE RUN, at any `F`: from any memory with zero counters, every weakly fair execution of @main on the cores
    terminates, nothing faulting, and every unscoped buffer of the final memory holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) tabs (datOf m ρ) () cellOf_inj emb₁ defs₀ noVar noL noLv m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Ride c)) (Tₙ := Last m ρ)
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- THE FRAME, at any `F`: the run, read at the six argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c)⟩) (run m ρ)

end Cert.KernelIdeal.Hand

end
-- ==== Proof.PayValue.lean ====
/- The kernels' arithmetic read at an index, at the ideal values (extended reals): the first kernel's
   payload is the batched product  out[b, d, e] = Σ_s x0[b, s, d] · x1[b, s, e]; the second kernel's three
   payloads are the zero fill, the accumulation  acc[p, q] + Σ_k a[p, k] · w[q, k], and the bias add
   acc[p, q] + bias[q]. -/
import proofs.«117554_j70016556860030_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen
open scoped BigOperators

variable [Cert.KernelIdeal.Facts]

/-! ## The batched product's operand indices, axis by axis

The dimension numbers: axis 0 of both operands is the batch axis, axis 1 of both is contracted, axis 2 of each is
free (the left operand's becomes the result's axis 1, the right operand's the result's axis 2). -/

/-- Left operand, batch axis: the result's batch coordinate. -/
theorem lhs_bmm_0 (i : S16x256x256.Idx) (q : dot_S16x128x256_S16x128x256_S16x256x256_1_1_2_2_0_0.contr.Idx) :
    (dot_S16x128x256_S16x128x256_S16x256x256_1_1_2_2_0_0.lhsIdx i q 0).val = (i 0).val := by
  unfold DotDims.lhsIdx
  rw [dif_pos (show (0 : Fin S16x128x256.rank) ∈ dot_S16x128x256_S16x128x256_S16x256x256_1_1_2_2_0_0.lhsBatch by decide)]
  rfl
/-- Left operand, contracted axis: the contraction coordinate. -/
theorem lhs_bmm_1 (i : S16x256x256.Idx) (q : dot_S16x128x256_S16x128x256_S16x256x256_1_1_2_2_0_0.contr.Idx) :
    (dot_S16x128x256_S16x128x256_S16x256x256_1_1_2_2_0_0.lhsIdx i q 1).val = (q ⟨0, by decide⟩).val :=
  dot_S16x128x256_S16x128x256_S16x256x256_1_1_2_2_0_0.lhsIdx_val_of_single rfl i q
/-- Left operand, free axis: the result's middle coordinate. -/
theorem lhs_bmm_2 (i : S16x256x256.Idx) (q : dot_S16x128x256_S16x128x256_S16x256x256_1_1_2_2_0_0.contr.Idx) :
    (dot_S16x128x256_S16x128x256_S16x256x256_1_1_2_2_0_0.lhsIdx i q 2).val = (i 1).val := by
  unfold DotDims.lhsIdx
  rw [dif_neg (show ¬(2 : Fin S16x128x256.rank) ∈ dot_S16x128x256_S16x128x256_S16x256x256_1_1_2_2_0_0.lhsBatch by decide), dif_pos (show (2 : Fin S16x128x256.rank) ∈ dot_S16x128x256_S16x128x256_S16x256x256_1_1_2_2_0_0.lhsNonContracting by decide)]
  rfl
/-- Right operand, batch axis: the result's batch coordinate. -/
theorem rhs_bmm_0 (i : S16x256x256.Idx) (q : dot_S16x128x256_S16x128x256_S16x256x256_1_1_2_2_0_0.contr.Idx) :
    (dot_S16x128x256_S16x128x256_S16x256x256_1_1_2_2_0_0.rhsIdx i q 0).val = (i 0).val := by
  unfold DotDims.rhsIdx
  rw [dif_pos (show (0 : Fin S16x128x256.rank) ∈ dot_S16x128x256_S16x128x256_S16x256x256_1_1_2_2_0_0.rhsBatch by decide)]
  rfl
/-- Right operand, contracted axis: the contraction coordinate. -/
theorem rhs_bmm_1 (i : S16x256x256.Idx) (q : dot_S16x128x256_S16x128x256_S16x256x256_1_1_2_2_0_0.contr.Idx) :
    (dot_S16x128x256_S16x128x256_S16x256x256_1_1_2_2_0_0.rhsIdx i q 1).val = (q ⟨0, by decide⟩).val :=
  dot_S16x128x256_S16x128x256_S16x256x256_1_1_2_2_0_0.rhsIdx_val_of_single rfl i q
/-- Right operand, free axis: the result's last coordinate. -/
theorem rhs_bmm_2 (i : S16x256x256.Idx) (q : dot_S16x128x256_S16x128x256_S16x256x256_1_1_2_2_0_0.contr.Idx) :
    (dot_S16x128x256_S16x128x256_S16x256x256_1_1_2_2_0_0.rhsIdx i q 2).val = (i 2).val := by
  unfold DotDims.rhsIdx
  rw [dif_neg (show ¬(2 : Fin S16x128x256.rank) ∈ dot_S16x128x256_S16x128x256_S16x256x256_1_1_2_2_0_0.rhsBatch by decide), dif_pos (show (2 : Fin S16x128x256.rank) ∈ dot_S16x128x256_S16x128x256_S16x256x256_1_1_2_2_0_0.rhsNonContracting by decide)]
  rfl

/-- The first kernel's payload: for each batch b, the product of the transposed d-column block with the
    e-column block, summed over the 128 rows. -/
theorem k0_pay1_apply (x0 x1 : Vec Ideal S16x128x256 .bf16) (b : Fin 16) (d e : Fin 256) :
    k0_pay1 (F := Ideal) x0 x1 (ix3 b d e) = ∑ s : Fin 128, x0 (ix3 b s d) * x1 (ix3 b s e) := by
  unfold k0_pay1
  simp only [shapeCast_self, truncf_apply, matmul]
  rw [Ideal.matmul_constant_zero_apply, ← Equiv.sum_comp (contrEquiv1 dot_S16x128x256_S16x128x256_S16x256x256_1_1_2_2_0_0 128 rfl rfl).symm]
  refine Finset.sum_congr rfl fun k _ => ?_
  have hk := contrEquiv1_symm_val dot_S16x128x256_S16x128x256_S16x256x256_1_1_2_2_0_0 128 rfl rfl k
  have el : dot_S16x128x256_S16x128x256_S16x256x256_1_1_2_2_0_0.lhsIdx (ix3 b d e) ((contrEquiv1 dot_S16x128x256_S16x128x256_S16x256x256_1_1_2_2_0_0 128 rfl rfl).symm k) = ix3 b k d := funext fun a => Fin.ext (by
    match a with
    | ⟨0, _⟩ => exact lhs_bmm_0 _ _
    | ⟨1, _⟩ => exact (lhs_bmm_1 _ _).trans hk
    | ⟨2, _⟩ => exact lhs_bmm_2 _ _)
  have er : dot_S16x128x256_S16x128x256_S16x256x256_1_1_2_2_0_0.rhsIdx (ix3 b d e) ((contrEquiv1 dot_S16x128x256_S16x128x256_S16x256x256_1_1_2_2_0_0 128 rfl rfl).symm k) = ix3 b k e := funext fun a => Fin.ext (by
    match a with
    | ⟨0, _⟩ => exact rhs_bmm_0 _ _
    | ⟨1, _⟩ => exact (rhs_bmm_1 _ _).trans hk
    | ⟨2, _⟩ => exact rhs_bmm_2 _ _)
  rw [el, er]

/-! ## The second kernel's product: both operands contracted along their axis 1 (a product with the transpose) -/

/-- Left operand, free axis: the result's row. -/
theorem lhs_lin_0 (i : S64x1024.Idx) (q : dot_S64x8192_S1024x8192_S64x1024_1_1_0_0_n_n.contr.Idx) :
    (dot_S64x8192_S1024x8192_S64x1024_1_1_0_0_n_n.lhsIdx i q 0).val = (i 0).val := by
  unfold DotDims.lhsIdx
  rw [dif_neg (show ¬(0 : Fin S64x8192.rank) ∈ dot_S64x8192_S1024x8192_S64x1024_1_1_0_0_n_n.lhsBatch by decide), dif_pos (show (0 : Fin S64x8192.rank) ∈ dot_S64x8192_S1024x8192_S64x1024_1_1_0_0_n_n.lhsNonContracting by decide)]
  rfl
/-- Left operand, contracted axis: the contraction coordinate. -/
theorem lhs_lin_1 (i : S64x1024.Idx) (q : dot_S64x8192_S1024x8192_S64x1024_1_1_0_0_n_n.contr.Idx) :
    (dot_S64x8192_S1024x8192_S64x1024_1_1_0_0_n_n.lhsIdx i q 1).val = (q ⟨0, by decide⟩).val :=
  dot_S64x8192_S1024x8192_S64x1024_1_1_0_0_n_n.lhsIdx_val_of_single rfl i q
/-- Right operand, free axis: the result's column. -/
theorem rhs_lin_0 (i : S64x1024.Idx) (q : dot_S64x8192_S1024x8192_S64x1024_1_1_0_0_n_n.contr.Idx) :
    (dot_S64x8192_S1024x8192_S64x1024_1_1_0_0_n_n.rhsIdx i q 0).val = (i 1).val := by
  unfold DotDims.rhsIdx
  rw [dif_neg (show ¬(0 : Fin S1024x8192.rank) ∈ dot_S64x8192_S1024x8192_S64x1024_1_1_0_0_n_n.rhsBatch by decide), dif_pos (show (0 : Fin S1024x8192.rank) ∈ dot_S64x8192_S1024x8192_S64x1024_1_1_0_0_n_n.rhsNonContracting by decide)]
  rfl
/-- Right operand, contracted axis: the contraction coordinate. -/
theorem rhs_lin_1 (i : S64x1024.Idx) (q : dot_S64x8192_S1024x8192_S64x1024_1_1_0_0_n_n.contr.Idx) :
    (dot_S64x8192_S1024x8192_S64x1024_1_1_0_0_n_n.rhsIdx i q 1).val = (q ⟨0, by decide⟩).val :=
  dot_S64x8192_S1024x8192_S64x1024_1_1_0_0_n_n.rhsIdx_val_of_single rfl i q

/-- The zero fill of the accumulator. -/
theorem k1_pay1_apply (p : Fin 64) (q : Fin 1024) : k1_pay1 (F := Ideal) (ix2 p q) = 0 := by
  unfold k1_pay1
  simp only [shapeCast_self, broadcast_apply]
  exact Ideal.ofBits_zero_f32

/-- One accumulation step: the accumulator plus the row of a against the row of w. -/
theorem k1_pay2_apply (a : Vec Ideal S64x8192 .bf16) (w : Vec Ideal S1024x8192 .bf16) (s : Vec Ideal S64x1024 .f32) (p : Fin 64) (q : Fin 1024) :
    k1_pay2 (F := Ideal) a w s (ix2 p q) = s (ix2 p q) + ∑ k : Fin 8192, a (ix2 p k) * w (ix2 q k) := by
  unfold k1_pay2
  simp only [shapeCast_self, addf_apply, matmul]
  rw [Ideal.matmul_constant_zero_apply, ← Equiv.sum_comp (contrEquiv1 dot_S64x8192_S1024x8192_S64x1024_1_1_0_0_n_n 8192 rfl rfl).symm]
  refine congrArg (s (ix2 p q) + ·) (Finset.sum_congr rfl fun k _ => ?_)
  have hk := contrEquiv1_symm_val dot_S64x8192_S1024x8192_S64x1024_1_1_0_0_n_n 8192 rfl rfl k
  have el : dot_S64x8192_S1024x8192_S64x1024_1_1_0_0_n_n.lhsIdx (ix2 p q) ((contrEquiv1 dot_S64x8192_S1024x8192_S64x1024_1_1_0_0_n_n 8192 rfl rfl).symm k) = ix2 p k := funext fun ax => Fin.ext (by
    match ax with
    | ⟨0, _⟩ => exact lhs_lin_0 _ _
    | ⟨1, _⟩ => exact (lhs_lin_1 _ _).trans hk)
  have er : dot_S64x8192_S1024x8192_S64x1024_1_1_0_0_n_n.rhsIdx (ix2 p q) ((contrEquiv1 dot_S64x8192_S1024x8192_S64x1024_1_1_0_0_n_n 8192 rfl rfl).symm k) = ix2 q k := funext fun ax => Fin.ext (by
    match ax with
    | ⟨0, _⟩ => exact rhs_lin_0 _ _
    | ⟨1, _⟩ => exact (rhs_lin_1 _ _).trans hk)
  rw [el, er]

/-- The bias add: the bias row, viewed as a one-row matrix, repeated over the 64 rows. -/
theorem k1_pay3_apply (acc : Vec Ideal S64x1024 .f32) (bias : Vec Ideal S1024 .f32) (p : Fin 64) (q : Fin 1024) :
    k1_pay3 (F := Ideal) acc bias (ix2 p q) = acc (ix2 p q) + bias (ix1 q) := by
  unfold k1_pay3
  simp only [addf_apply]
  rw [broadcastTo_1b_ab_apply, shapeCast_a_1a_apply]

end Cert.KernelIdeal.PayValue

end
-- ==== Proof.Spec.lean ====
import Idealize.ShloMosaic.PureOps.Ideal
import Idealize.ShloMosaic.Lib.ValueIdx
import Mathlib.Algebra.BigOperators.Fin

/-!
# What both programs compute, as one function of the argument arrays

Over the extended reals. From the two gathered row arrays `f, r : [64, 128, 256]` (batch, position, feature),
the weights `w : [1024, 65536]` and the bias `[1024]`:

* the tensor product summed over positions, `tp f r (b, d, e) = ∑ s, f (b, s, d) * r (b, s, e)`;
* flattened row-major, `flat (b, k) = tp (b, k / 256, k % 256)`;
* the linear layer, `out (b, n) = (∑ k < 65536, flat (b, k) * w (n, k)) + bias n`.

One program takes the long sum in one piece. The other takes it in eight consecutive stretches of 8192 terms, adding
each stretch's partial sum to a running total that starts from zero; the two agree because addition of extended reals
is commutative and associative (no distributivity, so no finiteness is asked of anything).
-/

noncomputable section

namespace Cert.Spec

open Idealize.ShloMosaic Idealize.ShloMosaic.ValueIdx

/-- The gathered rows: batch × position × feature. -/
abbrev Srows : Shape := ⟨3, ![64, 128, 256]⟩
/-- The tensor product per batch entry. -/
abbrev Stp : Shape := ⟨3, ![64, 256, 256]⟩
/-- The same, each batch entry flattened row-major. -/
abbrev Sflat : Shape := ⟨2, ![64, 65536]⟩
/-- The linear layer's weights, output feature × flattened input feature. -/
abbrev Swt : Shape := ⟨2, ![1024, 65536]⟩
abbrev Sbias : Shape := ⟨1, ![1024]⟩
abbrev Sout : Shape := ⟨2, ![64, 1024]⟩

/-- Feature pair `(d, e)` of batch entry `b`: the products of the two rows' features, summed over the positions. -/
def tp (f r : Srows.Idx → EReal) (b : Fin 64) (d e : Fin 256) : EReal :=
  ∑ s : Fin 128, f (ix3 b s d) * r (ix3 b s e)

/-- The tensor product as an array. -/
def tpArr (f r : Srows.Idx → EReal) : Stp.Idx → EReal := fun i => tp f r (i 0) (i 1) (i 2)

/-- Row-major position `k = 256 * d + e` of a batch entry's flattened tensor product. -/
def flatAt (x : Stp.Idx → EReal) (b : Fin 64) (k : Fin 65536) : EReal :=
  x (ix3 b ⟨k.val / 256, by omega⟩ ⟨k.val % 256, by omega⟩)

/-- The flattened array. -/
def flatArr (x : Stp.Idx → EReal) : Sflat.Idx → EReal := fun j => flatAt x (j 0) (j 1)

/-- The linear layer on a flattened array `a`: one long sum, then the bias. -/
def lin (a : Sflat.Idx → EReal) (w : Swt.Idx → EReal) (bias : Sbias.Idx → EReal) : Sout.Idx → EReal :=
  fun i => (∑ k : Fin 65536, a (ix2 (i 0) k) * w (ix2 (i 1) k)) + bias (ix1 (i 1))

/-- The whole computation. -/
def G (f r : Srows.Idx → EReal) (w : Swt.Idx → EReal) (bias : Sbias.Idx → EReal) : Sout.Idx → EReal :=
  lin (flatArr (tpArr f r)) w bias

/-- Position `k` of stretch `t`: term `8192 * t + k` of the long sum. -/
abbrev stretchIdx (t : Fin 8) (k : Fin 8192) : Fin 65536 := ⟨8192 * t.val + k.val, by omega⟩

/-- Stretch `t` and position `k` in it, against term `8192 * t + k` of the long sum: `k ↦ (k / 8192, k % 8192)` is the
inverse (quotient and remainder by 8192 of a number below `8 * 8192`). -/
def stretchEquiv : Fin 8 × Fin 8192 ≃ Fin 65536 where
  toFun p := stretchIdx p.1 p.2
  invFun k := (⟨k.val / 8192, by omega⟩, ⟨k.val % 8192, by omega⟩)
  left_inv p := by
    obtain ⟨⟨t, ht⟩, ⟨k, hk⟩⟩ := p
    refine Prod.ext (Fin.ext ?_) (Fin.ext ?_)
    · show (8192 * t + k) / 8192 = t
      omega
    · show (8192 * t + k) % 8192 = k
      omega
  right_inv k := by
    refine Fin.ext ?_
    show 8192 * (k.val / 8192) + k.val % 8192 = k.val
    omega

/-- A sum of 65536 terms is the sum over eight stretches of the 8192 terms of each. -/
theorem sum_stretches {M : Type*} [AddCommMonoid M] (g : Fin 65536 → M) :
    ∑ k : Fin 65536, g k = ∑ t : Fin 8, ∑ k : Fin 8192, g (stretchIdx t k) := by
  -- reindex along the bijection, then split the sum over pairs into the iterated sum
  calc ∑ k : Fin 65536, g k
      = ∑ p : Fin 8 × Fin 8192, g (stretchIdx p.1 p.2) :=
        (Fintype.sum_equiv stretchEquiv _ _ (fun _ => rfl)).symm
    _ = ∑ t : Fin 8, ∑ k : Fin 8192, g (stretchIdx t k) :=
        Fintype.sum_prod_type' (fun t k => g (stretchIdx t k))

/-- The running total after stretches `0 … n`, started from zero: `0 + S 0`, then each next stretch added on the right. -/
def runTotal {M : Type*} [AddCommMonoid M] (S : ℕ → M) : ℕ → M
  | 0 => 0 + S 0
  | n + 1 => runTotal S n + S (n + 1)

/-- The running total is the sum of the stretches so far. -/
theorem runTotal_eq {M : Type*} [AddCommMonoid M] (S : ℕ → M) (n : ℕ) :
    runTotal S n = ∑ t ∈ Finset.range (n + 1), S t := by
  induction n with
  | zero =>
    -- `0 + S 0` against the one-term sum
    show 0 + S 0 = ∑ t ∈ Finset.range (0 + 1), S t
    rw [Finset.sum_range_succ, Finset.sum_range_zero]
  | succ n ih =>
    -- the next stretch is the last term of the longer sum
    show runTotal S n + S (n + 1) = ∑ t ∈ Finset.range (n + 1 + 1), S t
    rw [Finset.sum_range_succ _ (n + 1), ih]

/-- Eight stretches' running total is the long sum. -/
theorem runTotal_seven {M : Type*} [AddCommMonoid M] (g : Fin 65536 → M) :
    runTotal (fun t => if h : t < 8 then ∑ k : Fin 8192, g (stretchIdx ⟨t, h⟩ k) else 0) 7 = ∑ k : Fin 65536, g k := by
  -- the running total is the sum over `t < 8`; there every `t` takes the first branch
  rw [runTotal_eq, Finset.sum_range, sum_stretches]
  refine Finset.sum_congr rfl (fun t _ => ?_)
  rw [dif_pos t.isLt]

end Cert.Spec

end
-- ==== Proof.IdealTpValue.lean ====
/-
# The tensor-product call's output array, as one function of its two input arrays

At a batch block the body leaves, in the output block, the batched product of the two input blocks: entry
`(b, d, e)` is `∑ s, x0 (b, s, d) * x1 (b, s, e)`, the sum over the 128 positions. Block `t` of an input array holds
batch rows `16 t … 16 t + 15` with every position and every feature, and block `t` of the output array holds the same
batch rows with every feature pair; so what block `t` writes back is block `t` of the tensor product of the two whole
arrays. The four blocks cover the 64 batch rows (row `r` is in block `r / 16`), so after the call the output array is
that tensor product.
-/
import proofs.«117554_j70016556860030_1_alg».proof.Proof.IdealTp
import proofs.«117554_j70016556860030_1_alg».proof.Proof.PayValue
import proofs.«117554_j70016556860030_1_alg».proof.Proof.Spec
import Idealize.ShloMosaic.Lib.Pipeline.Value
import Idealize.ShloMosaic.Lib.ValueIdx

noncomputable section

namespace Cert.KernelIdeal.HandValue

open Idealize.ShloMosaic Idealize.ShloMosaic.TcCoe Idealize.ShloMosaic.ValueIdx Cert.KernelIdeal Cert.KernelIdeal.Gen Cert.KernelIdeal.Hand
open scoped BigOperators

variable (V : (c : Dev nD) → (b : Ref sig .tc) → Buf (Elt Ideal) ((c : Thread nD τ).loc b))

/-! ## The body's result at an index -/

/-- The three offsets of the whole-block rectangle are zero. -/
theorem offsets_zero : (![0, 0, 0] : Fin 3 → Nat) = fun _ => 0 := funext fun a => by fin_cases a <;> rfl

/-- Entry `(b, d, e)` of the output block: the two input blocks' features `d` and `e` of batch row `b`, multiplied
    position by position and summed over the 128 positions. -/
theorem tpOut_apply (x0 x1 : Vec Ideal S16x128x256 .bf16) (b : Fin 16) (d e : Fin 256) :
    tpOut (F := Ideal) x0 x1 (ix3 b d e) = ∑ s : Fin 128, x0 (ix3 b s d) * x1 (ix3 b s e) := by
  unfold tpOut
  rw [View.canon_unit_zero offsets_zero]
  simp only [View.ld_unit_zero (S := S16x128x256) offsets_zero]
  exact PayValue.k0_pay1_apply x0 x1 b d e

/-! ## From the blocks to the array -/

/-- The block indices over the four batch blocks: each window's block index on the batch axis is the block's number,
    and zero on the other two axes. -/
theorem blockIndex_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- An index of an output block is a batch row in the block and a feature pair. -/
theorem outBlock_idx (j : S16x256x256.Idx) : ∃ (b : Fin 16) (d e : Fin 256), j = ix3 b d e :=
  ⟨j 0, j 1, j 2, eq_ix3 j⟩

/-- An index of the output array is a batch row and a feature pair. -/
theorem outArray_idx (i : S64x256x256.Idx) : ∃ (r : Fin 64) (d e : Fin 256), i = ix3 r d e :=
  ⟨i 0, i 1, i 2, eq_ix3 i⟩

/-- Batch row `b` of block `t` is batch row `16 t + b` of the arrays. -/
def rowOf (t : Fin cfg0.N) (b : Fin 16) : Fin 64 :=
  ⟨16 * t.val + b.val, by have h : t.val < grid0.N := t.isLt; rw [N_0] at h; omega⟩

/-- Where the first input's block `t` sits in its array: batch rows from `16 t`, every position, every feature. -/
theorem emb_in0 (t : Fin cfg0.N) (b : Fin 16) (s : Fin 128) (d : Fin 256) :
    ((cfg0.win 0).blk t).view.emb (ix3 b s d) = ix3 (rowOf t b) s d := by
  obtain ⟨e0, e1, e2, -⟩ := blockIndex_facts t
  funext a; apply Fin.ext
  match a with
  | ⟨0, _⟩ => show win0_0.index t (0 : Fin 3) * 16 + 1 * b.val = 16 * t.val + b.val; omega
  | ⟨1, _⟩ => show win0_0.index t (1 : Fin 3) * 128 + 1 * s.val = s.val; omega
  | ⟨2, _⟩ => show win0_0.index t (2 : Fin 3) * 256 + 1 * d.val = d.val; omega

/-- The second input's block `t` sits the same way. -/
theorem emb_in1 (t : Fin cfg0.N) (b : Fin 16) (s : Fin 128) (d : Fin 256) :
    ((cfg0.win 1).blk t).view.emb (ix3 b s d) = ix3 (rowOf t b) s d := by
  obtain ⟨-, -, -, e0, e1, e2, -⟩ := blockIndex_facts t
  funext a; apply Fin.ext
  match a with
  | ⟨0, _⟩ => show win0_1.index t (0 : Fin 3) * 16 + 1 * b.val = 16 * t.val + b.val; omega
  | ⟨1, _⟩ => show win0_1.index t (1 : Fin 3) * 128 + 1 * s.val = s.val; omega
  | ⟨2, _⟩ => show win0_1.index t (2 : Fin 3) * 256 + 1 * d.val = d.val; omega

/-- The output's block `t`: batch rows from `16 t`, every feature pair. -/
theorem emb_out (t : Fin cfg0.N) (b : Fin 16) (d e : Fin 256) :
    ((cfg0.win 2).blk t).view.emb (ix3 b d e) = ix3 (rowOf t b) d e := by
  obtain ⟨-, -, -, -, -, -, e0, e1, e2⟩ := blockIndex_facts t
  funext a; apply Fin.ext
  match a with
  | ⟨0, _⟩ => show win0_2.index t (0 : Fin 3) * 16 + 1 * b.val = 16 * t.val + b.val; omega
  | ⟨1, _⟩ => show win0_2.index t (1 : Fin 3) * 256 + 1 * d.val = d.val; omega
  | ⟨2, _⟩ => show win0_2.index t (2 : Fin 3) * 256 + 1 * e.val = e.val; omega

/-- The first input's block `t`, read off its array. -/
theorem tpBlk0_apply (c : Dev nD) (t : Fin cfg0.N) (b : Fin 16) (s : Fin 128) (d : Fin 256) :
    tpBlk (F := Ideal) V c 0 t (ix3 b s d) = V c main_v7 (ix3 (rowOf t b) s d) := by
  show V c main_v7 (((cfg0.win 0).blk t).view.emb (ix3 b s d)) = _
  rw [emb_in0]

/-- The second input's block `t`, read off its array. -/
theorem tpBlk1_apply (c : Dev nD) (t : Fin cfg0.N) (b : Fin 16) (s : Fin 128) (d : Fin 256) :
    tpBlk (F := Ideal) V c 1 t (ix3 b s d) = V c main_v15 (ix3 (rowOf t b) s d) := by
  show V c main_v15 (((cfg0.win 1).blk t).view.emb (ix3 b s d)) = _
  rw [emb_in1]

/-- What block `t` writes back is block `t` of the tensor product of the two input arrays: at batch row `b` of the
    block and feature pair `(d, e)` both are the sum over the positions of the products of rows `16 t + b`. -/
theorem tpFlushed_eq (c : Dev nD) (t : Fin cfg0.N) :
    (tpDat (F := Ideal) V c).flushed 2 t
      = ((cfg0.win 2).blk t).view.read (Elt Ideal) (Cert.Spec.tpArr (V c main_v7) (V c main_v15)) := by
  show (cfg0.win 2).cut (grid0.coords t) ((tpDat V c).after 2 t) = _
  rw [tpAfter2]
  funext j
  obtain ⟨b, d, e, rfl⟩ := outBlock_idx j
  show tpOut (F := Ideal) (tpBlk V c 0 t) (tpBlk V c 1 t) (ix3 b d e)
    = Cert.Spec.tpArr (V c main_v7) (V c main_v15) (((cfg0.win 2).blk t).view.emb (ix3 b d e))
  rw [tpOut_apply, emb_out]
  show _ = Cert.Spec.tp (V c main_v7) (V c main_v15) (rowOf t b) d e
  unfold Cert.Spec.tp
  refine Finset.sum_congr rfl fun s _ => ?_
  rw [tpBlk0_apply, tpBlk1_apply]

/-- Every index of the output array is in some block: batch row `r` is row `r % 16` of block `r / 16`. -/
theorem tpCovered (i : S64x256x256.Idx) :
    ∃ t : Fin cfg0.N, (cfg0.win 2).flush t = true ∧ i ∈ ((cfg0.win 2).blk t).view.set := by
  obtain ⟨r, d, e, rfl⟩ := outArray_idx i
  have hr : r.val / 16 < grid0.N := by rw [N_0]; omega
  have hb : r.val % 16 < 16 := by omega
  refine ⟨⟨r.val / 16, hr⟩, flush0_2 _, ?_⟩
  have h : ix3 r d e = ((cfg0.win 2).blk ⟨r.val / 16, hr⟩).view.emb (ix3 ⟨r.val % 16, hb⟩ d e) := by
    rw [emb_out]
    have hrow : r = rowOf ⟨r.val / 16, hr⟩ ⟨r.val % 16, hb⟩ := Fin.ext (by show r.val = 16 * (r.val / 16) + r.val % 16; omega)
    rw [← hrow]
  rw [h]
  exact ((cfg0.win 2).blk ⟨r.val / 16, hr⟩).view.emb_mem_set _

/-- After the call the output array is the tensor product of the two input arrays as the call found them. -/
theorem tpArr_final (c : Dev nD) :
    (tpDat (F := Ideal) V c).arrAt 2 cfg0.N = Cert.Spec.tpArr (V c main_v7) (V c main_v15) :=
  (tpDat (F := Ideal) V c).arrAt_eq_of_cover 2 _ (fun t _ => tpFlushed_eq V c t) tpCovered

end Cert.KernelIdeal.HandValue

end
-- ==== Proof.IdealLinValue.lean ====
/-
# The linear-layer call's output array, as one function of the three arrays it reads

At output element `(p, q)` a stretch's body adds to the scratch the stretch's partial sum
`∑ k < 8192, a (p, k) * w (q, k)` of its activation block `a` and weight block `w`; the first stretch starts the
scratch from zero, and the last stretch stores the scratch plus the bias at `q` into the output block. Block `t` of
the activations `[64, 65536]` (of the weights `[1024, 65536]`) holds every row and the columns
`8192 t … 8192 t + 8191`, so column `k` of block `t` is column `8192 t + k` of the array. Hence after stretch `n`
the scratch holds the running total of the partial sums of stretches `0 … n`, by induction on `n`; after the eighth
stretch that total is the whole sum over the 65536 columns, and the output block holds it plus the bias: the linear
layer. The output block is the whole output array and is written back once, after the last stretch, so the array ends
holding the linear layer of the activations, the weights and the bias as the call found them.
-/
import proofs.«117554_j70016556860030_1_alg».proof.Proof.IdealLin
import proofs.«117554_j70016556860030_1_alg».proof.Proof.PayValue
import proofs.«117554_j70016556860030_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.LinValue

open Idealize.ShloMosaic Idealize.ShloMosaic.TcCoe Idealize.ShloMosaic.Tactic Idealize.ShloMosaic.ValueIdx
open Idealize.ShloMosaic.Pipeline (Dat)
open Cert.KernelIdeal Cert.KernelIdeal.Gen Cert.KernelIdeal.Hand
open scoped BigOperators

/-! ## What the body leaves at each kind of stretch

Each kind of stretch leaves, in the scratch and (at the last stretch) in the output block, one store through the whole
block; read back, that is the stored vector: the product-and-add over what the scratch held (zero at the first
stretch), and at the last stretch that new total plus the bias row. -/

section Pieces
variable {F : FTy → Type} [FloatOps F]

/-- The two offsets of the whole-block rectangle are zero. -/
theorem zeros2 : (![0, 0] : Fin 2 → Nat) = fun _ => 0 := funext fun a => by fin_cases a <;> rfl
/-- The one offset of the whole bias row is zero. -/
theorem zeros1 : (![0] : Fin 1 → Nat) = fun _ => 0 := funext fun a => by fin_cases a; rfl

/-- First stretch: the scratch is zeroed, read back, and the stretch's product is added to that zero. -/
theorem accA_eq (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : isFirst i) (hc1 : ¬isLast i)
    (x0 : Vec F S64x8192 .bf16) (x1 : Vec F S1024x8192 .bf16) (x2 : Vec F S1024 .f32) :
    linAccA c i arg1 harg1 arg2 harg2 arg3 harg3 arg4 harg4 arg5 harg5 hc0 hc1 x0 x1 x2 = k1_pay2 x0 x1 (k1_pay1 (F := F)) := by
  unfold linAccA
  rw [View.read_writes_eq_canon _ _ _ (linCoverA c i arg1 harg1 arg2 harg2 arg3 harg3 arg4 harg4 arg5 harg5 hc0 hc1 x0 x1 x2)]
  unfold linRunA
  dsimp only
  sl_unfold_words
  rw [View.canon_cons_unit_zero (S := S64x1024) zeros2, View.readCov_unit_zero (S := S64x1024) _ zeros2]
  simp only [View.readAt_eq_ld, harg1.read_unread, harg2.read_unread, harg3.read_unread, harg5.read_unread, View.ld_unit_zero (S := S64x8192) zeros2, View.ld_unit_zero (S := S1024x8192) zeros2, View.ld_unit_zero (S := S64x1024) zeros2, View.ld_unit_zero (S := S1024) zeros1, View.readCov_unit_zero (S := S64x1024) _ zeros2]

/-- A middle stretch: the stretch's product is added to what the scratch held. -/
theorem accB_eq (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : ¬isLast i)
    (x0 : Vec F S64x8192 .bf16) (x1 : Vec F S1024x8192 .bf16) (x2 : Vec F S1024 .f32) (xs : Vec F S64x1024 .f32) :
    linAccB c i arg1 harg1 arg2 harg2 arg3 harg3 arg4 harg4 arg5 harg5 hc0 hc1 x0 x1 x2 xs = k1_pay2 x0 x1 xs := by
  unfold linAccB
  rw [View.read_writes_eq_canon _ _ _ (linCoverB c i arg1 harg1 arg2 harg2 arg3 harg3 arg4 harg4 arg5 harg5 hc0 hc1 x0 x1 x2 xs)]
  unfold linRunB
  dsimp only
  sl_unfold_words
  rw [View.canon_unit_zero zeros2]
  simp only [View.readAt_eq_ld, harg1.read_unread, harg2.read_unread, harg3.read_unread, harg5.read_unread, View.ld_unit_zero (S := S64x8192) zeros2, View.ld_unit_zero (S := S1024x8192) zeros2, View.ld_unit_zero (S := S64x1024) zeros2, View.ld_unit_zero (S := S1024) zeros1, View.readCov_unit_zero (S := S64x1024) _ zeros2]

/-- The last stretch, the scratch: as at a middle stretch. -/
theorem accC_eq (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) :
    linAccC c i arg1 harg1 arg2 harg2 arg3 harg3 arg4 harg4 arg5 harg5 hc0 hc1 x0 x1 x2 xs = k1_pay2 x0 x1 xs := by
  unfold linAccC
  rw [View.read_writes_eq_canon _ _ _ (linCoverC c i arg1 harg1 arg2 harg2 arg3 harg3 arg4 harg4 arg5 harg5 hc0 hc1 x0 x1 x2 xs)]
  unfold linRunC
  dsimp only
  sl_unfold_words
  rw [View.canon_unit_zero zeros2]
  simp only [View.readAt_eq_ld, harg1.read_unread, harg2.read_unread, harg3.read_unread, harg5.read_unread, View.ld_unit_zero (S := S64x8192) zeros2, View.ld_unit_zero (S := S1024x8192) zeros2, View.ld_unit_zero (S := S64x1024) zeros2, View.ld_unit_zero (S := S1024) zeros1, View.readCov_unit_zero (S := S64x1024) _ zeros2]

/-- The last stretch, the output block: the new total, read back from the scratch, plus the bias row. -/
theorem outC_eq (c : Dev nD) (i : grid1.Coords) (arg1 : Memref sig .tc .vmem S64x8192 .bf16) (harg1 : arg1.IsWhole) (arg2 : Memref sig .tc .vmem S1024x8192 .bf16) (harg2 : arg2.IsWhole) (arg3 : Memref sig .tc .vmem S1024 .f32) (harg3 : arg3.IsWhole) (arg4 : Memref sig .tc .vmem S64x1024 .f32) (harg4 : arg4.IsWhole) (arg5 : Memref sig .tc .vmem S64x1024 .f32) (harg5 : arg5.IsWhole) (hc0 : ¬isFirst i) (hc1 : isLast i)
    (x0 : Vec F S64x8192 .bf16) (x1 : Vec F S1024x8192 .bf16) (x2 : Vec F S1024 .f32) (xs : Vec F S64x1024 .f32) :
    linOutC c i arg1 harg1 arg2 harg2 arg3 harg3 arg4 harg4 arg5 harg5 hc0 hc1 x0 x1 x2 xs = k1_pay3 (k1_pay2 x0 x1 xs) x2 := by
  unfold linOutC
  rw [View.read_writes_eq_canon _ _ _ (linCoverOut c i arg1 harg1 arg2 harg2 arg3 harg3 arg4 harg4 arg5 harg5 hc0 hc1 x0 x1 x2 xs)]
  unfold linRunC
  dsimp only
  sl_unfold_words
  rw [View.canon_unit_zero zeros2]
  simp only [View.readAt_eq_ld, harg1.read_unread, harg2.read_unread, harg3.read_unread, harg5.read_unread, View.ld_unit_zero (S := S64x8192) zeros2, View.ld_unit_zero (S := S1024x8192) zeros2, View.ld_unit_zero (S := S64x1024) zeros2, View.ld_unit_zero (S := S1024) zeros1, View.readCov_unit_zero (S := S64x1024) _ zeros2]

end Pieces

section Values
variable (V : (c : Dev nD) → (b : Ref sig .tc) → Buf (Elt Ideal) ((c : Thread nD τ).loc b))

/-- A stretch's number is below eight. -/
theorem lt8 (t : Fin cfg1.N) : t.val < 8 := lt_of_lt_of_eq t.isLt (show cfg1.N = 8 from N_1)

/-- The block indices over the eight stretches: the activations' and the weights' blocks move along the columns with the
    stretch's number and stay at row block zero; the bias and the output have one block. -/
theorem blockIndex_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 1) = 0
    ∧ win1_3.index t (0 : Fin 2) = 0 ∧ win1_3.index t (1 : Fin 2) = 0 :=
  (by decide +kernel : ∀ t : Fin grid1.N, _)

/-- Entry `(p, k)` of the activations' block at stretch `t` is entry `(p, 8192 t + k)` of the activations. -/
theorem blk0_apply (c : Dev nD) (t : Fin cfg1.N) (p : Fin 64) (k : Fin 8192) :
    (linBlk V c 0 t : Vec Ideal S64x8192 .bf16) (ix2 p k) = V c main_v17 (ix2 p (Cert.Spec.stretchIdx ⟨t.val, lt8 t⟩ k)) := by
  unfold linBlk
  rw [View.read_apply]
  show V c main_v17 _ = V c main_v17 _
  congr 1
  funext a
  apply Fin.ext
  match a with
  | ⟨0, _⟩ => show win1_0.index t 0 * 64 + 1 * p.val = p.val; rw [(blockIndex_facts t).1]; omega
  | ⟨1, _⟩ => show win1_0.index t 1 * 8192 + 1 * k.val = 8192 * t.val + k.val; rw [(blockIndex_facts t).2.1]; omega

/-- Entry `(q, k)` of the weights' block at stretch `t` is entry `(q, 8192 t + k)` of the weights. -/
theorem blk1_apply (c : Dev nD) (t : Fin cfg1.N) (q : Fin 1024) (k : Fin 8192) :
    (linBlk V c 1 t : Vec Ideal S1024x8192 .bf16) (ix2 q k) = V c main_v18 (ix2 q (Cert.Spec.stretchIdx ⟨t.val, lt8 t⟩ k)) := by
  unfold linBlk
  rw [View.read_apply]
  show V c main_v18 _ = V c main_v18 _
  congr 1
  funext a
  apply Fin.ext
  match a with
  | ⟨0, _⟩ => show win1_1.index t 0 * 1024 + 1 * q.val = q.val; rw [(blockIndex_facts t).2.2.1]; omega
  | ⟨1, _⟩ => show win1_1.index t 1 * 8192 + 1 * k.val = 8192 * t.val + k.val; rw [(blockIndex_facts t).2.2.2.1]; omega

/-- The bias has one block, the whole row: entry `q` of it is entry `q` of the bias. -/
theorem blk2_apply (c : Dev nD) (t : Fin cfg1.N) (q : Fin 1024) :
    (linBlk V c 2 t : Vec Ideal S1024 .f32) (ix1 q) = V c main_arg5 (ix1 q) := by
  unfold linBlk
  rw [View.read_apply]
  show V c main_arg5 _ = V c main_arg5 _
  congr 1
  funext a
  apply Fin.ext
  match a with
  | ⟨0, _⟩ => show win1_2.index t 0 * 1024 + 1 * q.val = q.val; rw [(blockIndex_facts t).2.2.2.2.1]; omega

/-- The activations, the weights and the bias as the call finds them, as arrays of extended reals. -/
abbrev actArr (c : Dev nD) : Cert.Spec.Sflat.Idx → EReal := V c main_v17
abbrev wtArr (c : Dev nD) : Cert.Spec.Swt.Idx → EReal := V c main_v18
abbrev biasArr (c : Dev nD) : Cert.Spec.Sbias.Idx → EReal := V c main_arg5

/-- Stretch `t`'s partial sum for output element `(p, q)`: its 8192 terms of the long sum (zero past the eighth stretch). -/
abbrev stretchSum (c : Dev nD) (p : Fin 64) (q : Fin 1024) : ℕ → EReal := fun t =>
  if h : t < 8 then ∑ k : Fin 8192, actArr V c (ix2 p (Cert.Spec.stretchIdx ⟨t, h⟩ k)) * wtArr V c (ix2 q (Cert.Spec.stretchIdx ⟨t, h⟩ k)) else 0

/-- After the first stretch the scratch holds zero plus the first stretch's partial sum. -/
theorem scratch_first (c : Dev nD) (t : Fin cfg1.N) (h0 : t.val = 0) (p : Fin 64) (q : Fin 1024) :
    (linOuts V c t.val t.isLt).2 (ix2 p q)
      = 0 + ∑ k : Fin 8192, actArr V c (ix2 p (Cert.Spec.stretchIdx ⟨t.val, lt8 t⟩ k)) * wtArr V c (ix2 q (Cert.Spec.stretchIdx ⟨t.val, lt8 t⟩ k)) := by
  have hl : ¬isLast (grid1.coords t) := fun h => by have h' := (isLast_iff t).mp h; omega
  rw [linOuts_first V c t h0 hl]
  dsimp only
  rw [accA_eq c (grid1.coords t) (lm0 t) (lh0 t) (lm1 t) (lh1 t) (lm2 t) (lh2 t) (lm3 t) (lh3 t) accM (Memref.isWhole_whole _) ((isFirst_iff t).mpr h0) hl (linBlk V c 0 t) (linBlk V c 1 t) (linBlk V c 2 t)]
  rw [PayValue.k1_pay2_apply (linBlk V c 0 t) (linBlk V c 1 t) (k1_pay1 (F := Ideal)) p q, PayValue.k1_pay1_apply p q]
  refine congrArg (0 + ·) (Finset.sum_congr rfl fun k _ => ?_)
  rw [blk0_apply V c t p k, blk1_apply V c t q k]

/-- After any later stretch the scratch holds what it held plus that stretch's partial sum. -/
theorem scratch_step (c : Dev nD) (t : Fin cfg1.N) (h0 : t.val ≠ 0) (p : Fin 64) (q : Fin 1024) :
    (linOuts V c t.val t.isLt).2 (ix2 p q)
      = (linOuts V c (t.val - 1) (Nat.lt_of_le_of_lt (Nat.sub_le _ _) t.isLt)).2 (ix2 p q)
        + ∑ k : Fin 8192, actArr V c (ix2 p (Cert.Spec.stretchIdx ⟨t.val, lt8 t⟩ k)) * wtArr V c (ix2 q (Cert.Spec.stretchIdx ⟨t.val, lt8 t⟩ k)) := by
  by_cases h7 : t.val = 7
  · rw [linOuts_last V c t h0 h7]
    dsimp only
    rw [accC_eq c (grid1.coords t) (lm0 t) (lh0 t) (lm1 t) (lh1 t) (lm2 t) (lh2 t) (lm3 t) (lh3 t) accM (Memref.isWhole_whole _) (fun h => h0 ((isFirst_iff t).mp h)) ((isLast_iff t).mpr h7) (linBlk V c 0 t) (linBlk V c 1 t) (linBlk V c 2 t) (linOuts V c (t.val - 1) (Nat.lt_of_le_of_lt (Nat.sub_le _ _) t.isLt)).2]
    rw [PayValue.k1_pay2_apply (linBlk V c 0 t) (linBlk V c 1 t) (linOuts V c (t.val - 1) (Nat.lt_of_le_of_lt (Nat.sub_le _ _) t.isLt)).2 p q]
    refine congrArg (_ + ·) (Finset.sum_congr rfl fun k _ => ?_)
    rw [blk0_apply V c t p k, blk1_apply V c t q k]
  · rw [linOuts_mid V c t h0 h7]
    dsimp only
    rw [accB_eq c (grid1.coords t) (lm0 t) (lh0 t) (lm1 t) (lh1 t) (lm2 t) (lh2 t) (lm3 t) (lh3 t) accM (Memref.isWhole_whole _) (fun h => h0 ((isFirst_iff t).mp h)) (fun h => h7 ((isLast_iff t).mp h)) (linBlk V c 0 t) (linBlk V c 1 t) (linBlk V c 2 t) (linOuts V c (t.val - 1) (Nat.lt_of_le_of_lt (Nat.sub_le _ _) t.isLt)).2]
    rw [PayValue.k1_pay2_apply (linBlk V c 0 t) (linBlk V c 1 t) (linOuts V c (t.val - 1) (Nat.lt_of_le_of_lt (Nat.sub_le _ _) t.isLt)).2 p q]
    refine congrArg (_ + ·) (Finset.sum_congr rfl fun k _ => ?_)
    rw [blk0_apply V c t p k, blk1_apply V c t q k]

/-- So after stretch `n` the scratch holds the running total of the stretches' partial sums. -/
theorem scratch_eq (c : Dev nD) (p : Fin 64) (q : Fin 1024) : ∀ (n : ℕ) (hn : n < cfg1.N),
    (linOuts V c n hn).2 (ix2 p q) = Cert.Spec.runTotal (stretchSum V c p q) n
  | 0, hn => by
    refine (scratch_first V c ⟨0, hn⟩ rfl p q).trans ?_
    show _ = 0 + stretchSum V c p q 0
    rw [show stretchSum V c p q 0 = _ from dif_pos (by omega : 0 < 8)]
  | n + 1, hn => by
    have h8 : n + 1 < 8 := lt8 ⟨n + 1, hn⟩
    refine (scratch_step V c ⟨n + 1, hn⟩ (Nat.succ_ne_zero n) p q).trans ?_
    show (linOuts V c n _).2 (ix2 p q) + _ = Cert.Spec.runTotal (stretchSum V c p q) n + stretchSum V c p q (n + 1)
    rw [scratch_eq c p q n, show stretchSum V c p q (n + 1) = _ from dif_pos h8]

/-- After the last stretch the output block holds the linear layer of the three arrays: the running total of all eight
    stretches is the long sum, and the bias is added to it. -/
theorem out_last (c : Dev nD) (h : 7 < cfg1.N) :
    (linOuts V c 7 h).1 = Cert.Spec.lin (actArr V c) (wtArr V c) (biasArr V c) := by
  funext i
  obtain ⟨p, q, rfl⟩ : ∃ (p : Fin 64) (q : Fin 1024), i = ix2 p q := ⟨i 0, i 1, eq_ix2 i⟩
  have e1 : (linOuts V c 7 h).1 (ix2 p q) = (linOuts V c 7 h).2 (ix2 p q) + biasArr V c (ix1 q) := by
    have e := linOuts_last V c ⟨7, h⟩ (Nat.succ_ne_zero 6) rfl
    rw [show linOuts V c 7 h = _ from e]
    dsimp only
    rw [outC_eq c (grid1.coords ⟨7, h⟩) (lm0 ⟨7, h⟩) (lh0 ⟨7, h⟩) (lm1 ⟨7, h⟩) (lh1 ⟨7, h⟩) (lm2 ⟨7, h⟩) (lh2 ⟨7, h⟩) (lm3 ⟨7, h⟩) (lh3 ⟨7, h⟩) accM (Memref.isWhole_whole _) (fun hf => Nat.succ_ne_zero 6 ((isFirst_iff ⟨7, h⟩).mp hf)) ((isLast_iff ⟨7, h⟩).mpr rfl) (linBlk V c 0 ⟨7, h⟩) (linBlk V c 1 ⟨7, h⟩) (linBlk V c 2 ⟨7, h⟩) (linOuts V c (7 - 1) (Nat.lt_of_le_of_lt (Nat.sub_le _ _) h)).2,
      accC_eq c (grid1.coords ⟨7, h⟩) (lm0 ⟨7, h⟩) (lh0 ⟨7, h⟩) (lm1 ⟨7, h⟩) (lh1 ⟨7, h⟩) (lm2 ⟨7, h⟩) (lh2 ⟨7, h⟩) (lm3 ⟨7, h⟩) (lh3 ⟨7, h⟩) accM (Memref.isWhole_whole _) (fun hf => Nat.succ_ne_zero 6 ((isFirst_iff ⟨7, h⟩).mp hf)) ((isLast_iff ⟨7, h⟩).mpr rfl) (linBlk V c 0 ⟨7, h⟩) (linBlk V c 1 ⟨7, h⟩) (linBlk V c 2 ⟨7, h⟩) (linOuts V c (7 - 1) (Nat.lt_of_le_of_lt (Nat.sub_le _ _) h)).2]
    rw [PayValue.k1_pay3_apply _ (linBlk V c 2 ⟨7, h⟩) p q, blk2_apply V c ⟨7, h⟩ q]
  rw [e1, scratch_eq V c p q 7 h]
  exact congrArg (· + biasArr V c (ix1 q)) (Cert.Spec.runTotal_seven (fun k : Fin 65536 => actArr V c (ix2 p k) * wtArr V c (ix2 q k)))

end Values

/-! ## From the one write-back to the output array -/

section Final
variable (V : (c : Dev nD) → (b : Ref sig .tc) → Buf (Elt Ideal) ((c : Thread nD τ).loc b))

/-- The one write-back, after the last stretch, writes the linear layer: the output block at block index zero through
    zero offsets is the whole output array. -/
theorem linFlushed_eq (c : Dev nD) (t : Fin cfg1.N) (hf : (cfg1.win 3).flush t = true) :
    (linDat (F := Ideal) V c).flushed 3 t
      = ((cfg1.win 3).blk t).view.read (Elt Ideal) (Cert.Spec.lin (V c main_v17) (V c main_v18) (V c main_arg5)) := by
  have h7 : t.val = 7 := by have := (flush1_3 t).mp hf; have := lt8 t; omega
  obtain ⟨n, hn⟩ := t
  obtain rfl : n = 7 := h7
  show (cfg1.win 3).cut (grid1.coords ⟨7, hn⟩) ((linDat V c).after 3 ⟨7, hn⟩) = _
  rw [linAfter3]
  show (cfg1.win 3).cut (grid1.coords ⟨7, hn⟩) (linOuts V c 7 hn).1 = _
  rw [out_last V c hn]
  have hz' : (fun a => win1_3.index ⟨7, hn⟩ a * main_v19.ty.shape.size a) = fun _ => 0 := funext fun a => by
    match a with
    | ⟨0, _⟩ => show win1_3.index ⟨7, hn⟩ 0 * _ = 0; rw [(blockIndex_facts ⟨7, hn⟩).2.2.2.2.2.1]; exact Nat.zero_mul _
    | ⟨1, _⟩ => show win1_3.index ⟨7, hn⟩ 1 * _ = 0; rw [(blockIndex_facts ⟨7, hn⟩).2.2.2.2.2.2]; exact Nat.zero_mul _
  exact (Memref.read_access_unit_zero (Elt Ideal) main_v19 hz' (fun a => by rw [congrFun hz' a]; simp) (Cert.Spec.lin (V c main_v17) (V c main_v18) (V c main_arg5))).symm

/-- After the call the output array holds the linear layer of the activations, the weights and the bias as the call
    found them: the last stretch's block is the whole array, so its write-back covers every index. -/
theorem linArr_final (c : Dev nD) :
    (linDat (F := Ideal) V c).arrAt 3 cfg1.N = Cert.Spec.lin (V c main_v17) (V c main_v18) (V c main_arg5) :=
  (linDat (F := Ideal) V c).arrAt_eq_of_cover 3 (Cert.Spec.lin (V c main_v17) (V c main_v18) (V c main_arg5)) (linFlushed_eq V c) fun i =>
    ⟨t1_7, (flush1_3 t1_7).mpr rfl, by
      show i ∈ ((View.whole main_v19).slice (win1_3.rect t1_7)).set
      rw [View.set_slice_whole, Rect.mem_set_unit]
      intro a
      have h0 : (i 0 : Nat) < 64 := (i 0).isLt
      have h1 : (i 1 : Nat) < 1024 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 64 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 1024 from by decide +kernel]; omega⟩

end Final

end Cert.KernelIdeal.LinValue

end
-- ==== Proof.RefValue.lean ====
import proofs.«117554_j70016556860030_1_alg».proof.Proof.Gen.ReferenceIdeal.Run
import proofs.«117554_j70016556860030_1_alg».proof.Proof.Gen.ReferenceIdeal.Read
import proofs.«117554_j70016556860030_1_alg».proof.Proof.Spec
import Idealize.ShloMosaic.PureOps.Ideal
import Idealize.ShloMosaic.Lib.ValueIdx
import Mathlib.Algebra.BigOperators.Fin

/-!
# The reference's value is the target function

The reference's result array, read one element at a time: element `(b, n)` is the bias at `n` added to the sum over
`k < 65536` of the reshaped tensor product at `(b, k)` times the transposed weights at `(k, n)`. The reshape reads
the rank-3 tensor product at `(b, k / 256, k % 256)` (row-major: `k = 256 * d + e`), the tensor product at `(b, d, e)`
is the sum over the 128 positions `s` of the first row array at `(b, s, d)` times the second at `(b, s, e)`, the
transpose reads the weights at `(n, k)`, and the two broadcasts read the bias at `n`. That is `Cert.Spec.G` of the two
gathered row arrays, the weights and the bias, term for term; only index bookkeeping is proved here, no arithmetic law
of the extended reals is used.
-/

noncomputable section

namespace Cert.ReferenceIdeal.RefValue

open Cert.ReferenceIdeal Cert.ReferenceIdeal.Gen Cert.ReferenceIdeal.Read Idealize.ShloMosaic Idealize.ShloMosaic.ValueIdx

variable [Cert.ReferenceIdeal.Facts]

/-- The target function at the element `(b, n)`, written out: the long sum of (sum over positions) times weight, plus the bias. -/
theorem G_at (f r : Cert.Spec.Srows.Idx → EReal) (w : Cert.Spec.Swt.Idx → EReal) (bias : Cert.Spec.Sbias.Idx → EReal)
    (b : Fin 64) (n : Fin 1024) :
    Cert.Spec.G f r w bias (ix2 b n)
      = (∑ k : Fin 65536, (∑ s : Fin 128, f (ix3 b s (⟨k.val / 256, by omega⟩ : Fin 256)) * r (ix3 b s (⟨k.val % 256, by omega⟩ : Fin 256)))
            * w (ix2 n k)) + bias (ix1 n) := rfl

/-- Where the first row array is read for term `k` of the long sum and position `s`: the reshape sends `(b, k)` to
    `(b, k / 256, k % 256)` because `(b * 65536 + k) / 65536 = b` and `(b * 65536 + k) / 256 % 256 = k / 256` for `k < 65536`;
    the left operand of the batched product is read at (batch, position, first free axis). -/
theorem left_read (b : Fin 64) (n : Fin 1024) (k : Fin 65536) (s : Fin 128) :
    lidx_main_v14 (idx_main_v15 (lidx_main_v17 (ix2 b n) k)) s = ix3 b s (⟨k.val / 256, by omega⟩ : Fin 256) := by
  have hb : b.val < 64 := b.isLt
  have hk : k.val < 65536 := k.isLt
  funext a
  refine Fin.ext ?_
  match a with
  | ⟨0, _⟩ => show (b.val * 65536 + k.val) / 65536 = b.val; omega
  | ⟨1, _⟩ => rfl
  | ⟨2, _⟩ => show (b.val * 65536 + k.val) / 256 % 256 = k.val / 256; omega

/-- Where the second row array is read: the same, with the second free axis `(b * 65536 + k) % 256 = k % 256`. -/
theorem right_read (b : Fin 64) (n : Fin 1024) (k : Fin 65536) (s : Fin 128) :
    ridx_main_v14 (idx_main_v15 (lidx_main_v17 (ix2 b n) k)) s = ix3 b s (⟨k.val % 256, by omega⟩ : Fin 256) := by
  have hb : b.val < 64 := b.isLt
  have hk : k.val < 65536 := k.isLt
  funext a
  refine Fin.ext ?_
  match a with
  | ⟨0, _⟩ => show (b.val * 65536 + k.val) / 65536 = b.val; omega
  | ⟨1, _⟩ => rfl
  | ⟨2, _⟩ => show (b.val * 65536 + k.val) % 256 = k.val % 256; omega

/-- The transposed weights at `(k, n)` are the weights at `(n, k)`. -/
theorem weight_read (b : Fin 64) (n : Fin 1024) (k : Fin 65536) :
    idx_main_v16 (ridx_main_v17 (ix2 b n) k) = ix2 n k :=
  funext fun a => Fin.ext (by match a with | ⟨0, _⟩ => rfl | ⟨1, _⟩ => rfl)

/-- The bias broadcast to a row and then to all 64 rows is read at `n`. -/
theorem bias_read (b : Fin 64) (n : Fin 1024) :
    idx_main_v18 (idx_main_v19 (ix2 b n)) = ix1 n :=
  funext fun a => Fin.ext (by match a with | ⟨0, _⟩ => rfl)

/-- The reference's result, as a function of the two gathered row arrays, the weights and the bias, is the target function. -/
theorem ref_is_G (x0 x1 : (⟨S64x128, .i32⟩ : BufTy).Contents (Elt Ideal)) (x2 : (⟨S50257x256, .f32⟩ : BufTy).Contents (Elt Ideal)) (x3 : (⟨S512x256, .f32⟩ : BufTy).Contents (Elt Ideal)) (x4 : (⟨S1024x65536, .f32⟩ : BufTy).Contents (Elt Ideal)) (x5 : (⟨S1024, .f32⟩ : BufTy).Contents (Elt Ideal)) :
    Cert.ReferenceIdeal.Read.val_main_v20 (F := Ideal) x0 x1 x2 x3 x4 x5
      = Cert.Spec.G (Cert.ReferenceIdeal.Read.val_main_v6 (F := Ideal) x0 x2) (Cert.ReferenceIdeal.Read.val_main_v13 (F := Ideal) x1 x3) x4 x5 := by
  funext i
  obtain ⟨b, n, rfl⟩ : ∃ (b : Fin 64) (n : Fin 1024), i = ix2 b n := ⟨i 0, i 1, eq_ix2 i⟩
  rw [G_at, val_main_v20_apply, val_main_v17_apply, val_main_v19_apply, val_main_v18_apply, Ideal.addf_def, bias_read]
  refine congrArg (· + x5 (ix1 n)) (Finset.sum_congr rfl fun k _ => ?_)
  rw [val_main_v15_apply, val_main_v14_apply, val_main_v16_apply, weight_read]
  refine congrArg (· * x4 (ix2 n k)) (Finset.sum_congr rfl fun s _ => ?_)
  rw [left_read, right_read]

end Cert.ReferenceIdeal.RefValue

end
-- ==== Proof.IdealValue.lean ====
/-
# The idealized kernel program's result is the specification's function of the argument arrays

Over the extended reals (a change of float format is the identity there). The first stretch of host operations
leaves the two gathered row arrays — the very terms the reference's own first operations compute, kept unopened —;
the first call leaves their tensor product summed over positions; the reshape flattens each batch entry row-major;
the weights' conversion is the identity; the second call leaves the linear layer of those. Put together: `Spec.G`.
-/
import proofs.«117554_j70016556860030_1_alg».proof.Proof.IdealRun
import proofs.«117554_j70016556860030_1_alg».proof.Proof.IdealTpValue
import proofs.«117554_j70016556860030_1_alg».proof.Proof.IdealLinValue
import proofs.«117554_j70016556860030_1_alg».proof.Proof.RefValue
import proofs.«117554_j70016556860030_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.ValueIdx Idealize.SL.Sem Idealize.ShloMosaic.StableHlo
open Cert.KernelIdeal Cert.KernelIdeal.Gen Cert.KernelIdeal.Hand Cert.KernelIdeal.LinValue

variable (m : (ℓ : Loc nD τ sig) → Buf (Elt Ideal) ℓ) (ρ : Dev nD → PrngReg)

/-! ## The gathered rows -/

/-- The first row array as the first call finds it: the gather of the first table's rows at the first index array
    (a negative index wrapped once), as the reference's own operations compute it. -/
theorem rows0 (c : Dev nD) :
    E1 m ρ c main_v7 = Cert.ReferenceIdeal.Read.val_main_v6 (F := Ideal) (m ((c.tc : Thread nD τ).loc main_arg0)) (m ((c.tc : Thread nD τ).loc main_arg2)) := by
  show StableHlo.after hostOps0 (fun b => (s₀ m ρ).mem ((c : Dev nD), b)) (Proc.devRef .tc main_v7) = _
  after_results
  rfl

/-- The second row array likewise, of the second table and the second index array. -/
theorem rows1 (c : Dev nD) :
    E1 m ρ c main_v15 = Cert.ReferenceIdeal.Read.val_main_v13 (F := Ideal) (m ((c.tc : Thread nD τ).loc main_arg1)) (m ((c.tc : Thread nD τ).loc main_arg3)) := by
  show StableHlo.after hostOps0 (fun b => (s₀ m ρ).mem ((c : Dev nD), b)) (Proc.devRef .tc main_v15) = _
  after_results
  rfl

/-! ## Between the calls -/

/-- The first call's output array: the tensor product of the two row arrays. -/
theorem prod_eq (c : Dev nD) : E2 m ρ c main_v16 = Cert.Spec.tpArr (E1 m ρ c main_v7) (E1 m ρ c main_v15) :=
  (B2_arr m ρ c 2).trans (tpArr_final (E1 m ρ) c)

/-- A row-major reshape of `[64, 256, 256]` to `[64, 65536]` reads position `k` of a batch entry at feature pair `(k / 256, k % 256)`. -/
theorem reshape_flat (x : Cert.Spec.Stp.Idx → EReal) (h : Cert.Spec.Stp.ShapeCasts Cert.Spec.Sflat) :
    shapeCast Cert.Spec.Sflat x h = Cert.Spec.flatArr x := by
  funext j
  obtain ⟨b, k, rfl⟩ : ∃ (b : Fin 64) (k : Fin 65536), j = ix2 b k := ⟨j 0, j 1, eq_ix2 j⟩
  refine (shapeCast_apply x h (ix2 b k) (ix3 b ⟨k.val / 256, by omega⟩ ⟨k.val % 256, by omega⟩) ?_).trans rfl
  rw [Shape.rowMajor_val_three, Shape.rowMajor_val_two]
  show (b.val * 256 + k.val / 256) * 256 + k.val % 256 = b.val * 65536 + k.val
  omega

/-- The second call's activations: the flattened tensor product. -/
theorem acts_eq (c : Dev nD) : E3 m ρ c main_v17 = Cert.Spec.flatArr (Cert.Spec.tpArr (E1 m ρ c main_v7) (E1 m ρ c main_v15)) := by
  have e : E3 m ρ c main_v17 = shapeCast S64x65536 (E2 m ρ c main_v16) shapeCasts_S64x256x256_S64x65536 := by
    show StableHlo.after hostOps1 (B2 m ρ c) (Proc.devRef .tc main_v17) = _
    after_results
    rfl
  rw [e, prod_eq]
  exact reshape_flat _ _

/-- The weights reach the second call as launched (their conversion is the identity over the extended reals). -/
theorem weights_eq (c : Dev nD) : E3 m ρ c main_v18 = m ((c.tc : Thread nD τ).loc main_arg4) := by
  have e : E3 m ρ c main_v18 = B2 m ρ c (Proc.devRef .tc main_arg4) := by
    show StableHlo.after hostOps1 (B2 m ρ c) (Proc.devRef .tc main_v18) = _
    after_results
    rfl
  rw [e]
  exact (B2_of_ne m ρ c main_arg4 (by decide)).trans (StableHlo.after_of_writes_sub hostOps0 _ hostOps0_writes (by decide))

/-- So does the bias. -/
theorem bias_eq (c : Dev nD) : E3 m ρ c main_arg5 = m ((c.tc : Thread nD τ).loc main_arg5) :=
  (StableHlo.after_of_writes_sub hostOps1 _ hostOps1_writes (by decide)).trans
    ((B2_of_ne m ρ c main_arg5 (by decide)).trans (StableHlo.after_of_writes_sub hostOps0 _ hostOps0_writes (by decide)))

/-! ## The result -/

/-- The result array after the run is the specification's function of the argument arrays. -/
theorem result_eq (c : Dev nD) :
    B4 m ρ c (Proc.devRef .tc main_v19)
      = Cert.Spec.G (Cert.ReferenceIdeal.Read.val_main_v6 (F := Ideal) (m ((c.tc : Thread nD τ).loc main_arg0)) (m ((c.tc : Thread nD τ).loc main_arg2)))
          (Cert.ReferenceIdeal.Read.val_main_v13 (F := Ideal) (m ((c.tc : Thread nD τ).loc main_arg1)) (m ((c.tc : Thread nD τ).loc main_arg3)))
          (m ((c.tc : Thread nD τ).loc main_arg4)) (m ((c.tc : Thread nD τ).loc main_arg5)) := by
  rw [B4_main_v19, linArr_final (E3 m ρ) c, acts_eq, weights_eq, bias_eq, rows0, rows1]
  rfl

end Cert.KernelIdeal.HandValue

end
-- ==== Proof.lean ====
/-
  The five claims. The two kernel programs — the word-level one and its idealization, the same text read at two float
  instances — run to the end without a fault and leave their arguments unchanged: the run of @main as four items
  (host operations, the tensor-product call, host operations, the linear-layer call), each call certified from its
  body's runs. The reference, a straight line of host operations, runs by its generated run. The idealization applied
  no rewrite, so there is nothing to preserve. Over the extended reals both idealized programs end with the same
  function of the arguments: the gathered rows' tensor product summed over positions, flattened, through the linear
  layer; the kernel takes the layer's long sum in eight stretches added to a running total, which is the same sum.
-/
import proofs.«117554_j70016556860030_1_alg».proof.Defs
import proofs.«117554_j70016556860030_1_alg».proof.Proof.Gen.Kernel
import proofs.«117554_j70016556860030_1_alg».proof.Proof.Gen.KernelIdeal
import proofs.«117554_j70016556860030_1_alg».proof.Proof.Gen.ReferenceIdeal
import proofs.«117554_j70016556860030_1_alg».proof.Proof.Gen.Pre_finite_inputs
import proofs.«117554_j70016556860030_1_alg».proof.Proof.Gen.ReferenceIdeal.Run
import proofs.«117554_j70016556860030_1_alg».proof.Proof.Gen.ReferenceIdeal.Read
import proofs.«117554_j70016556860030_1_alg».proof.Proof.BitsRun
import proofs.«117554_j70016556860030_1_alg».proof.Proof.IdealRun
import proofs.«117554_j70016556860030_1_alg».proof.Proof.IdealValue
import proofs.«117554_j70016556860030_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the specification's function of the arguments, the kernel's by the run of its four
    items read at the result array, the reference's by its generated run read one operation at a time. -/
theorem algebraic : Cert.algebraic_KernelIdeal_ReferenceIdeal := by
  intro m ρ m' ρ' _ hagree
  refine ⟨fun c => Cert.Spec.G
      (Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.ReferenceIdeal.Read.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun _ h c => ?_) (Cert.KernelIdeal.Hand.run (F := Ideal) m ρ)
    exact ⟨(h c _ (Cert.KernelIdeal.Hand.mem_uc Cert.KernelIdeal.main_v19 (by decide))).trans (Cert.KernelIdeal.HandValue.result_eq m ρ c),
      (h c _ (Cert.KernelIdeal.Hand.mem_uc Cert.KernelIdeal.main_arg0 (by decide))).trans (Cert.KernelIdeal.Hand.B4_main_arg0 m ρ c),
      (h c _ (Cert.KernelIdeal.Hand.mem_uc Cert.KernelIdeal.main_arg1 (by decide))).trans (Cert.KernelIdeal.Hand.B4_main_arg1 m ρ c),
      (h c _ (Cert.KernelIdeal.Hand.mem_uc Cert.KernelIdeal.main_arg2 (by decide))).trans (Cert.KernelIdeal.Hand.B4_main_arg2 m ρ c),
      (h c _ (Cert.KernelIdeal.Hand.mem_uc Cert.KernelIdeal.main_arg3 (by decide))).trans (Cert.KernelIdeal.Hand.B4_main_arg3 m ρ c),
      (h c _ (Cert.KernelIdeal.Hand.mem_uc Cert.KernelIdeal.main_arg4 (by decide))).trans (Cert.KernelIdeal.Hand.B4_main_arg4 m ρ c),
      (h c _ (Cert.KernelIdeal.Hand.mem_uc Cert.KernelIdeal.main_arg5 (by decide))).trans (Cert.KernelIdeal.Hand.B4_main_arg5 m ρ c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v20_eq, Cert.ReferenceIdeal.RefValue.ref_is_G,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
